-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S1x2048x4096 : Shape := ⟨3, ![1, 2048, 4096]⟩
abbrev S4x2048x4096 : Shape := ⟨3, ![4, 2048, 4096]⟩
abbrev S1x2048 : Shape := ⟨2, ![1, 2048]⟩
abbrev S4x2048 : Shape := ⟨2, ![4, 2048]⟩
abbrev S512x4096 : Shape := ⟨2, ![512, 4096]⟩
abbrev S4x256x4096 : Shape := ⟨3, ![4, 256, 4096]⟩
abbrev S4x256 : Shape := ⟨2, ![4, 256]⟩
abbrev S512x256 : Shape := ⟨2, ![512, 256]⟩
abbrev S1x256x4096 : Shape := ⟨3, ![1, 256, 4096]⟩
abbrev S256x4096 : Shape := ⟨2, ![256, 4096]⟩
abbrev S1x256 : Shape := ⟨2, ![1, 256]⟩
abbrev S256 : Shape := ⟨1, ![256]⟩

abbrev nBuf : Space → Nat
  | .hbm => 26
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S4096x4096, .bf16⟩
  | .hbm, ⟨13, _⟩ => ⟨S1x2048x4096, .f32⟩
  | .hbm, ⟨14, _⟩ => ⟨S1x2048x4096, .f32⟩
  | .hbm, ⟨15, _⟩ => ⟨S1x2048x4096, .f32⟩
  | .hbm, ⟨16, _⟩ => ⟨S1x2048x4096, .f32⟩
  | .hbm, ⟨17, _⟩ => ⟨S4x2048x4096, .f32⟩
  | .hbm, ⟨18, _⟩ => ⟨S4x2048x4096, .bf16⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S4x2048, .f32⟩
  | .hbm, ⟨24, _⟩ => ⟨S4096x2048, .f32⟩
  | .hbm, ⟨25, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S4x256x4096, .bf16⟩
  | .local _ .vmem, ⟨3, _⟩ => ⟨S4x256x4096, .bf16⟩
  | .local _ .vmem, ⟨4, _⟩ => ⟨S4x256, .f32⟩
  | .local _ .vmem, ⟨5, _⟩ => ⟨S4x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  concatenates_S4096x2048_S4096x2048_S4096x4096_d1 : Shape.Concatenates [S4096x2048, S4096x2048] S4096x4096 1
  bitsLt_bf16_f32 : FTy.bits .bf16 < FTy.bits .f32
  bcast_S2048x4096_S1x2048x4096_1_2 : S2048x4096.BroadcastsInDim S1x2048x4096 (![1, 2] : Fin 2 → Fin S1x2048x4096.rank)
  concatenates_S1x2048x4096_S1x2048x4096_S1x2048x4096_S1x2048x4096_S4x2048x4096_d0 : Shape.Concatenates [S1x2048x4096, S1x2048x4096, S1x2048x4096, S1x2048x4096] S4x2048x4096 0
  bcast_S2048_S1x2048_1 : S2048.BroadcastsInDim S1x2048 (![1] : Fin 1 → Fin S1x2048.rank)
  concatenates_S1x2048_S1x2048_S1x2048_S1x2048_S4x2048_d0 : Shape.Concatenates [S1x2048, S1x2048, S1x2048, S1x2048] S4x2048 0
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4x256x4096_S1x256x4096_0_0_0 : ∀ a, (![0, 0, 0] : Fin 3 → Nat) a + S1x256x4096.size a ≤ S4x256x4096.size a
  h_S1x256x4096 : 0 < S1x256x4096.numel
  shapeCasts_S1x256x4096_S256x4096 : S1x256x4096.ShapeCasts S256x4096
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S4x256x4096_S1x256x4096_1_0_0 : ∀ a, (![1, 0, 0] : Fin 3 → Nat) a + S1x256x4096.size a ≤ S4x256x4096.size a
  inb_S4x256_S1x256_1_0 : ∀ a, (![1, 0] : Fin 2 → Nat) a + S1x256.size a ≤ S4x256.size a
  inb_S4x256x4096_S1x256x4096_2_0_0 : ∀ a, (![2, 0, 0] : Fin 3 → Nat) a + S1x256x4096.size a ≤ S4x256x4096.size a
  inb_S4x256_S1x256_2_0 : ∀ a, (![2, 0] : Fin 2 → Nat) a + S1x256.size a ≤ S4x256.size a
  inb_S4x256x4096_S1x256x4096_3_0_0 : ∀ a, (![3, 0, 0] : Fin 3 → Nat) a + S1x256x4096.size a ≤ S4x256x4096.size a
  inb_S4x256_S1x256_3_0 : ∀ a, (![3, 0] : Fin 2 → Nat) a + S1x256.size a ≤ S4x256.size a
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x4096.size a ≤ S4x2048x4096.size a
  hwx0_1 : ∀ i : grid0.Coords, EltTy.bits .bf16 = 32 ∨ (Rect.block (s := S4x2048x4096) S4x256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x2048.size a
  hwx0_2 : ∀ i : grid0.Coords, EltTy.bits .f32 = 32 ∨ (Rect.block (s := S4x2048) S4x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x2048.size a
  hwx0_3 : ∀ i : grid0.Coords, EltTy.bits .f32 = 32 ∨ (Rect.block (s := S4096x2048) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x2048.size a
  hwx0_4 : ∀ i : grid0.Coords, EltTy.bits .f32 = 32 ∨ (Rect.block (s := S4096x2048) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x2048.size a
  hwx0_5 : ∀ i : grid0.Coords, EltTy.bits .f32 = 32 ∨ (Rect.block (s := S4096x2048) S512x256.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.KernelFrame.lean ====
/-
  The frame of the program: it runs to the end, faults nowhere, and leaves its eleven argument arrays as they were.

  @main is thirteen host operations (the concatenation of the previous hidden state and the input, the four weight
  matrices stacked into [4, 2048, 4096] and the four biases into [4, 2048], each through a change of float format where
  the source has one) followed by ONE pipelined region on an 8 × 8 grid.  None of the host operations writes an argument,
  so the region finds every argument as launched (`V_main_arg…`).

  At a grid point the body reads its four input blocks — 512 rows of the concatenation, 256 rows of each gate's weights,
  256 entries of each gate's bias, a 512 × 256 block of the old cell state — and stores two 512 × 256 blocks whole: the
  new hidden state (`hPay`) and the new cell state (`cPay`), each a pure function of the four input blocks.  So after
  the body each output's staging buffer holds that function of the point's input blocks (`out0_4`, `out0_5`), each
  input's buffer still holds its block, and the pipeline's launch theorem gives the run with every output array named.
  Stated for any float instance: nothing here looks at a float.
-/
import proofs.«147393_j58385785422053_1_alg».proof.Proof.Gen.Kernel.Launch
import proofs.«147393_j58385785422053_1_alg».proof.Proof.Gen.Kernel.Skeleton
import proofs.«147393_j58385785422053_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the thirteen host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names the arrays -/

/-- The old cell state is a window's array and comes back as the region found it; the other ten arguments are staged by
    no window and are untouched; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- the whole block of the concatenation -/
abbrev rX : Rect S512x4096 := Rect.unit (s := S512x4096) ![0, 0] S512x4096.size inb_S512x4096_S512x4096_0_0
/-- gate `g`'s 256 weight rows inside the stacked block -/
abbrev rW0 : Rect S4x256x4096 := Rect.unit (s := S4x256x4096) ![0, 0, 0] S1x256x4096.size inb_S4x256x4096_S1x256x4096_0_0_0
abbrev rW1 : Rect S4x256x4096 := Rect.unit (s := S4x256x4096) ![1, 0, 0] S1x256x4096.size inb_S4x256x4096_S1x256x4096_1_0_0
abbrev rW2 : Rect S4x256x4096 := Rect.unit (s := S4x256x4096) ![2, 0, 0] S1x256x4096.size inb_S4x256x4096_S1x256x4096_2_0_0
abbrev rW3 : Rect S4x256x4096 := Rect.unit (s := S4x256x4096) ![3, 0, 0] S1x256x4096.size inb_S4x256x4096_S1x256x4096_3_0_0
/-- gate `g`'s 256 bias entries inside the stacked block -/
abbrev rB0 : Rect S4x256 := Rect.unit (s := S4x256) ![0, 0] S1x256.size inb_S4x256_S1x256_0_0
abbrev rB1 : Rect S4x256 := Rect.unit (s := S4x256) ![1, 0] S1x256.size inb_S4x256_S1x256_1_0
abbrev rB2 : Rect S4x256 := Rect.unit (s := S4x256) ![2, 0] S1x256.size inb_S4x256_S1x256_2_0
abbrev rB3 : Rect S4x256 := Rect.unit (s := S4x256) ![3, 0] S1x256.size inb_S4x256_S1x256_3_0
/-- a whole 512 × 256 block (the old cell state's, and each output's) -/
abbrev rO : Rect S512x256 := Rect.unit (s := S512x256) ![0, 0] S512x256.size inb_S512x256_S512x256_0_0

/-! ## What the body stores, from the four input blocks -/

/-- The stored new cell state: the body's cell-state value at the blocks the body loads. -/
def cPay (x0 : Vec F S512x4096 .bf16) (x1 : Vec F S4x256x4096 .bf16) (x2 : Vec F S4x256 .f32) (x3 : Vec F S512x256 .f32) : Vec F S512x256 .f32 :=
  k0_pay1 (k0_pay4 (View.ld x0 rX) (View.ld x1 rW0) (View.ld x2 rB0)) (k0_pay5 (View.ld x0 rX) (View.ld x1 rW1) (View.ld x2 rB1))
    (k0_pay6 (View.ld x0 rX) (View.ld x1 rW2) (View.ld x2 rB2)) (View.ld x3 rO)

/-- The stored new hidden state. -/
def hPay (x0 : Vec F S512x4096 .bf16) (x1 : Vec F S4x256x4096 .bf16) (x2 : Vec F S4x256 .f32) (x3 : Vec F S512x256 .f32) : Vec F S512x256 .f32 :=
  k0_pay2 (k0_pay4 (View.ld x0 rX) (View.ld x1 rW0) (View.ld x2 rB0)) (k0_pay5 (View.ld x0 rX) (View.ld x1 rW1) (View.ld x2 rB1))
    (k0_pay6 (View.ld x0 rX) (View.ld x1 rW2) (View.ld x2 rB2)) (k0_pay7 (View.ld x0 rX) (View.ld x1 rW3)) (k0_pay8 (View.ld x2 rB3)) (View.ld x3 rO)

/-- Window 4's staging buffer after the body: its one store, of the new hidden state. -/
def out0_4 (x0 : Vec F S512x4096 .bf16) (x1 : Vec F S4x256x4096 .bf16) (x2 : Vec F S4x256 .f32) (x3 : Vec F S512x256 .f32) : Vec F S512x256 .f32 :=
  View.canon [⟨rO, hPay x0 x1 x2 x3⟩]

/-- Window 5's staging buffer after the body: its one store, of the new cell state. -/
def out0_5 (x0 : Vec F S512x4096 .bf16) (x1 : Vec F S4x256x4096 .bf16) (x2 : Vec F S4x256 .f32) (x3 : Vec F S512x256 .f32) : Vec F S512x256 .f32 :=
  View.canon [⟨rO, cPay x0 x1 x2 x3⟩]

/-- The one store covers the buffer. -/
theorem cover0 (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## The body's triple -/

set_option maxHeartbeats 2000000 in
/-- The body on whole staging memrefs, the inputs' at contents `x0 … x3` and the outputs' at anything, runs to the
    continuation with the inputs' as they were and the outputs' at `out0_4`, `out0_5` of the inputs'. -/
theorem sound_kernel (c : Dev nD) (E : Set ℕ) (i : grid0.Coords) (arg2 : Memref sig .tc .vmem S512x4096 .bf16) (harg2 : arg2.IsWhole) (arg3 : Memref sig .tc .vmem S4x256x4096 .bf16) (harg3 : arg3.IsWhole) (arg4 : Memref sig .tc .vmem S4x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole)
    (x0 : Vec F S512x4096 .bf16) (x1 : Vec F S4x256x4096 .bf16) (x2 : Vec F S4x256 .f32) (x3 : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2 x3) ∗ owns (c : Thread nD τ) arg7 fullShare (out0_5 x0 x1 x2 x3)) -∗ K ⟨⟩))
      ⊢ wp frame (wpE (defs₀ (F := F)) Variants.none c none) E (cc0__lstm_kernel i arg2 harg2 arg3 harg3 arg4 harg4 arg5 harg5 arg6 harg6 arg7 harg7) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0 _)
  iexists _; isplitr
  swap; · iexact H5
  ipureintro
  try dsimp only
  exact View.read_writes_eq_canon _ _ _ (cover0 _)

/-! ## The pipeline's proof data -/

/-- The arrays as the region finds them; after the body at point `t` each input's buffer at its block and each output's
    at the body's function of the input blocks; nothing of the kernel's own to carry. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline is what the
    proof data says and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Frm

end
-- ==== Proof.IdealFrame.lean ====
/-
  The frame of the program: it runs to the end, faults nowhere, and leaves its eleven argument arrays as they were.

  @main is thirteen host operations (the concatenation of the previous hidden state and the input, the four weight
  matrices stacked into [4, 2048, 4096] and the four biases into [4, 2048], each through a change of float format where
  the source has one) followed by ONE pipelined region on an 8 × 8 grid.  None of the host operations writes an argument,
  so the region finds every argument as launched (`V_main_arg…`).

  At a grid point the body reads its four input blocks — 512 rows of the concatenation, 256 rows of each gate's weights,
  256 entries of each gate's bias, a 512 × 256 block of the old cell state — and stores two 512 × 256 blocks whole: the
  new hidden state (`hPay`) and the new cell state (`cPay`), each a pure function of the four input blocks.  So after
  the body each output's staging buffer holds that function of the point's input blocks (`out0_4`, `out0_5`), each
  input's buffer still holds its block, and the pipeline's launch theorem gives the run with every output array named.
  Stated for any float instance: nothing here looks at a float.
-/
import proofs.«147393_j58385785422053_1_alg».proof.Proof.Gen.KernelIdeal.Launch
import proofs.«147393_j58385785422053_1_alg».proof.Proof.Gen.KernelIdeal.Skeleton
import proofs.«147393_j58385785422053_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the thirteen host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names the arrays -/

/-- The old cell state is a window's array and comes back as the region found it; the other ten arguments are staged by
    no window and are untouched; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- the whole block of the concatenation -/
abbrev rX : Rect S512x4096 := Rect.unit (s := S512x4096) ![0, 0] S512x4096.size inb_S512x4096_S512x4096_0_0
/-- gate `g`'s 256 weight rows inside the stacked block -/
abbrev rW0 : Rect S4x256x4096 := Rect.unit (s := S4x256x4096) ![0, 0, 0] S1x256x4096.size inb_S4x256x4096_S1x256x4096_0_0_0
abbrev rW1 : Rect S4x256x4096 := Rect.unit (s := S4x256x4096) ![1, 0, 0] S1x256x4096.size inb_S4x256x4096_S1x256x4096_1_0_0
abbrev rW2 : Rect S4x256x4096 := Rect.unit (s := S4x256x4096) ![2, 0, 0] S1x256x4096.size inb_S4x256x4096_S1x256x4096_2_0_0
abbrev rW3 : Rect S4x256x4096 := Rect.unit (s := S4x256x4096) ![3, 0, 0] S1x256x4096.size inb_S4x256x4096_S1x256x4096_3_0_0
/-- gate `g`'s 256 bias entries inside the stacked block -/
abbrev rB0 : Rect S4x256 := Rect.unit (s := S4x256) ![0, 0] S1x256.size inb_S4x256_S1x256_0_0
abbrev rB1 : Rect S4x256 := Rect.unit (s := S4x256) ![1, 0] S1x256.size inb_S4x256_S1x256_1_0
abbrev rB2 : Rect S4x256 := Rect.unit (s := S4x256) ![2, 0] S1x256.size inb_S4x256_S1x256_2_0
abbrev rB3 : Rect S4x256 := Rect.unit (s := S4x256) ![3, 0] S1x256.size inb_S4x256_S1x256_3_0
/-- a whole 512 × 256 block (the old cell state's, and each output's) -/
abbrev rO : Rect S512x256 := Rect.unit (s := S512x256) ![0, 0] S512x256.size inb_S512x256_S512x256_0_0

/-! ## What the body stores, from the four input blocks -/

/-- The stored new cell state: the body's cell-state value at the blocks the body loads. -/
def cPay (x0 : Vec F S512x4096 .bf16) (x1 : Vec F S4x256x4096 .bf16) (x2 : Vec F S4x256 .f32) (x3 : Vec F S512x256 .f32) : Vec F S512x256 .f32 :=
  k0_pay1 (k0_pay4 (View.ld x0 rX) (View.ld x1 rW0) (View.ld x2 rB0)) (k0_pay5 (View.ld x0 rX) (View.ld x1 rW1) (View.ld x2 rB1))
    (k0_pay6 (View.ld x0 rX) (View.ld x1 rW2) (View.ld x2 rB2)) (View.ld x3 rO)

/-- The stored new hidden state. -/
def hPay (x0 : Vec F S512x4096 .bf16) (x1 : Vec F S4x256x4096 .bf16) (x2 : Vec F S4x256 .f32) (x3 : Vec F S512x256 .f32) : Vec F S512x256 .f32 :=
  k0_pay2 (k0_pay4 (View.ld x0 rX) (View.ld x1 rW0) (View.ld x2 rB0)) (k0_pay5 (View.ld x0 rX) (View.ld x1 rW1) (View.ld x2 rB1))
    (k0_pay6 (View.ld x0 rX) (View.ld x1 rW2) (View.ld x2 rB2)) (k0_pay7 (View.ld x0 rX) (View.ld x1 rW3)) (k0_pay8 (View.ld x2 rB3)) (View.ld x3 rO)

/-- Window 4's staging buffer after the body: its one store, of the new hidden state. -/
def out0_4 (x0 : Vec F S512x4096 .bf16) (x1 : Vec F S4x256x4096 .bf16) (x2 : Vec F S4x256 .f32) (x3 : Vec F S512x256 .f32) : Vec F S512x256 .f32 :=
  View.canon [⟨rO, hPay x0 x1 x2 x3⟩]

/-- Window 5's staging buffer after the body: its one store, of the new cell state. -/
def out0_5 (x0 : Vec F S512x4096 .bf16) (x1 : Vec F S4x256x4096 .bf16) (x2 : Vec F S4x256 .f32) (x3 : Vec F S512x256 .f32) : Vec F S512x256 .f32 :=
  View.canon [⟨rO, cPay x0 x1 x2 x3⟩]

/-- The one store covers the buffer. -/
theorem cover0 (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## The body's triple -/

set_option maxHeartbeats 2000000 in
/-- The body on whole staging memrefs, the inputs' at contents `x0 … x3` and the outputs' at anything, runs to the
    continuation with the inputs' as they were and the outputs' at `out0_4`, `out0_5` of the inputs'. -/
theorem sound_kernel (c : Dev nD) (E : Set ℕ) (i : grid0.Coords) (arg2 : Memref sig .tc .vmem S512x4096 .bf16) (harg2 : arg2.IsWhole) (arg3 : Memref sig .tc .vmem S4x256x4096 .bf16) (harg3 : arg3.IsWhole) (arg4 : Memref sig .tc .vmem S4x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole)
    (x0 : Vec F S512x4096 .bf16) (x1 : Vec F S4x256x4096 .bf16) (x2 : Vec F S4x256 .f32) (x3 : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2 x3) ∗ owns (c : Thread nD τ) arg7 fullShare (out0_5 x0 x1 x2 x3)) -∗ K ⟨⟩))
      ⊢ wp frame (wpE (defs₀ (F := F)) Variants.none c none) E (cc0__lstm_kernel i arg2 harg2 arg3 harg3 arg4 harg4 arg5 harg5 arg6 harg6 arg7 harg7) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0 _)
  iexists _; isplitr
  swap; · iexact H5
  ipureintro
  try dsimp only
  exact View.read_writes_eq_canon _ _ _ (cover0 _)

/-! ## The pipeline's proof data -/

/-- The arrays as the region finds them; after the body at point `t` each input's buffer at its block and each output's
    at the body's function of the input blocks; nothing of the kernel's own to carry. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline is what the
    proof data says and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Frm

end
-- ==== Proof.Spec.lean ====
/-
  The long short-term memory cell as one function of its argument arrays, entry by entry, on the extended reals.

  With `comb` the row-wise concatenation of the previous hidden state and the input ([4096, 4096]), each of the four
  gates has the pre-activation
      gate W b (r, j) = (∑ k, comb (r, k) · W (j, k)) + b j ,
  a contraction of a row of `comb` with a ROW of the gate's weight matrix (the weights are stored [out, in]), plus the bias.
  The new cell state is  σ(gate_f) · c_prev + σ(gate_i) · tanh(gate_c)  and the new hidden state
  σ(gate_o) · tanh(new cell state), with σ x = 1 / (1 + e^(-x)).
-/
import Idealize.ShloMosaic.PureOps.Ideal
import Idealize.ShloMosaic.Lib.ValueIdx
import Idealize.ShloMosaic.Lib.IdealHost

noncomputable section

open scoped BigOperators

namespace Cert.Lstm

open Idealize.ShloMosaic Idealize.ShloMosaic.ValueIdx

/-- batch × hidden -/
abbrev Sbh : Shape := ⟨2, ![4096, 2048]⟩
/-- batch × (hidden + input) -/
abbrev Sbc : Shape := ⟨2, ![4096, 4096]⟩
/-- hidden × (hidden + input): one gate's weights, stored [out, in] -/
abbrev Shc : Shape := ⟨2, ![2048, 4096]⟩
/-- hidden: one gate's bias -/
abbrev Sh : Shape := ⟨1, ![2048]⟩

/-- The previous hidden state and the input side by side: columns 0 … 2047 the hidden state's, 2048 … 4095 the input's. -/
def combOf (h x : Sbh.Idx → EReal) : Sbc.Idx → EReal :=
  concatenate Sbc 1 [⟨Sbh, h⟩, ⟨Sbh, x⟩] (by decide : Shape.Concatenates [Sbh, Sbh] Sbc 1)

/-- A gate's pre-activation at batch row `r` and hidden unit `j`: row `r` of `comb` against row `j` of `W`, plus `b j`. -/
def gate (comb : Sbc.Idx → EReal) (W : Shc.Idx → EReal) (b : Sh.Idx → EReal) (r : Fin 4096) (j : Fin 2048) : EReal :=
  (∑ k : Fin 4096, comb (ix2 r k) * W (ix2 j k)) + b (ix1 j)

/-- The new cell state: forget gate times the old cell state plus input gate times the candidate. -/
def cell (comb : Sbc.Idx → EReal) (Wf : Shc.Idx → EReal) (bf : Sh.Idx → EReal) (Wi : Shc.Idx → EReal) (bi : Sh.Idx → EReal)
    (Wc : Shc.Idx → EReal) (bc : Sh.Idx → EReal) (cprev : Sbh.Idx → EReal) (i : Sbh.Idx) : EReal :=
  Ideal.logistic (gate comb Wf bf (i 0) (i 1)) * cprev i
    + Ideal.logistic (gate comb Wi bi (i 0) (i 1)) * Ideal.tanh (gate comb Wc bc (i 0) (i 1))

/-- The new hidden state: output gate times tanh of the new cell state. -/
def hidden (comb : Sbc.Idx → EReal) (Wf : Shc.Idx → EReal) (bf : Sh.Idx → EReal) (Wi : Shc.Idx → EReal) (bi : Sh.Idx → EReal)
    (Wc : Shc.Idx → EReal) (bc : Sh.Idx → EReal) (Wo : Shc.Idx → EReal) (bo : Sh.Idx → EReal) (cprev : Sbh.Idx → EReal)
    (i : Sbh.Idx) : EReal :=
  Ideal.logistic (gate comb Wo bo (i 0) (i 1)) * Ideal.tanh (cell comb Wf bf Wi bi Wc bc cprev i)

end Cert.Lstm

end
-- ==== Proof.HostReads.lean ====
/-
  What the region finds in the three arrays the host operations make, read entry by entry at the ideal instance
  (a change of float format is the identity there):
  * the concatenation array is the previous hidden state and the input side by side;
  * the stacked weights [4, 2048, 4096] hold gate g's matrix at leading index g;
  * the stacked biases [4, 2048] hold gate g's bias at leading index g.
-/
import proofs.«147393_j58385785422053_1_alg».proof.Proof.IdealFrame
import proofs.«147393_j58385785422053_1_alg».proof.Proof.Spec
import Idealize.ShloMosaic.Lib.Pipeline.Value
import Idealize.ShloMosaic.Lib.StableHlo.Run

set_option maxRecDepth 16384

noncomputable section

namespace Cert.KernelIdeal.HostReads

open Cert.KernelIdeal Cert.KernelIdeal.Gen Cert.KernelIdeal.Frm Idealize.ShloMosaic Idealize.ShloMosaic.TcCoe Idealize.SL.Sem
open Idealize.ShloMosaic.Pipeline (Dat)
open Idealize.ShloMosaic.ValueIdx Idealize.ShloMosaic.StableHlo

/-! ## Four arrays stacked along a new leading axis, read at an index -/

/-- Entry (g, j, k) of four [1, 2048, 4096] arrays laid end to end along the leading axis is entry (0, j, k) of the g-th. -/
theorem stack4_mat {α : Type} (x0 x1 x2 x3 : S1x2048x4096.Idx → α)
    (h : Shape.Concatenates [S1x2048x4096, S1x2048x4096, S1x2048x4096, S1x2048x4096] S4x2048x4096 0)
    (g : Fin 4) (j : Fin 2048) (k : Fin 4096) :
    concatenate S4x2048x4096 0 [⟨S1x2048x4096, x0⟩, ⟨S1x2048x4096, x1⟩, ⟨S1x2048x4096, x2⟩, ⟨S1x2048x4096, x3⟩] h (ix3 g j k)
      = (![x0, x1, x2, x3] g) (ix3 0 j k) := by
  have hi : ∀ b : Fin S1x2048x4096.rank, b.cast (rfl : S1x2048x4096.rank = S4x2048x4096.rank) ≠ (0 : Fin 3) →
      ((ix3 (0 : Fin 1) j k : S1x2048x4096.Idx) b).val = ((ix3 g j k : S4x2048x4096.Idx) (b.cast rfl)).val := fun b hb =>
    match b, hb with
    | ⟨0, _⟩, hb => absurd rfl hb
    | ⟨1, _⟩, _ => rfl
    | ⟨2, _⟩, _ => rfl
  match g with
  | ⟨0, _⟩ => exact concatenate_apply_piece (t := S4x2048x4096) (0 : Fin 3) [⟨S1x2048x4096, x0⟩, ⟨S1x2048x4096, x1⟩, ⟨S1x2048x4096, x2⟩, ⟨S1x2048x4096, x3⟩] h _ 0 (by show (0 : Nat) < 4; decide) S1x2048x4096 x0 rfl rfl 0 rfl (ix3 0 j k) hi rfl
  | ⟨1, _⟩ => exact concatenate_apply_piece (t := S4x2048x4096) (0 : Fin 3) [⟨S1x2048x4096, x0⟩, ⟨S1x2048x4096, x1⟩, ⟨S1x2048x4096, x2⟩, ⟨S1x2048x4096, x3⟩] h _ 1 (by show (1 : Nat) < 4; decide) S1x2048x4096 x1 rfl rfl 1 rfl (ix3 0 j k) hi rfl
  | ⟨2, _⟩ => exact concatenate_apply_piece (t := S4x2048x4096) (0 : Fin 3) [⟨S1x2048x4096, x0⟩, ⟨S1x2048x4096, x1⟩, ⟨S1x2048x4096, x2⟩, ⟨S1x2048x4096, x3⟩] h _ 2 (by show (2 : Nat) < 4; decide) S1x2048x4096 x2 rfl rfl 2 rfl (ix3 0 j k) hi rfl
  | ⟨3, _⟩ => exact concatenate_apply_piece (t := S4x2048x4096) (0 : Fin 3) [⟨S1x2048x4096, x0⟩, ⟨S1x2048x4096, x1⟩, ⟨S1x2048x4096, x2⟩, ⟨S1x2048x4096, x3⟩] h _ 3 (by show (3 : Nat) < 4; decide) S1x2048x4096 x3 rfl rfl 3 rfl (ix3 0 j k) hi rfl

/-- Entry (g, j) of four [1, 2048] arrays laid end to end along the leading axis is entry (0, j) of the g-th. -/
theorem stack4_vec {α : Type} (x0 x1 x2 x3 : S1x2048.Idx → α)
    (h : Shape.Concatenates [S1x2048, S1x2048, S1x2048, S1x2048] S4x2048 0)
    (g : Fin 4) (j : Fin 2048) :
    concatenate S4x2048 0 [⟨S1x2048, x0⟩, ⟨S1x2048, x1⟩, ⟨S1x2048, x2⟩, ⟨S1x2048, x3⟩] h (ix2 g j)
      = (![x0, x1, x2, x3] g) (ix2 0 j) := by
  have hi : ∀ b : Fin S1x2048.rank, b.cast (rfl : S1x2048.rank = S4x2048.rank) ≠ (0 : Fin 2) →
      ((ix2 (0 : Fin 1) j : S1x2048.Idx) b).val = ((ix2 g j : S4x2048.Idx) (b.cast rfl)).val := fun b hb =>
    match b, hb with
    | ⟨0, _⟩, hb => absurd rfl hb
    | ⟨1, _⟩, _ => rfl
  match g with
  | ⟨0, _⟩ => exact concatenate_apply_piece (t := S4x2048) (0 : Fin 2) [⟨S1x2048, x0⟩, ⟨S1x2048, x1⟩, ⟨S1x2048, x2⟩, ⟨S1x2048, x3⟩] h _ 0 (by show (0 : Nat) < 4; decide) S1x2048 x0 rfl rfl 0 rfl (ix2 0 j) hi rfl
  | ⟨1, _⟩ => exact concatenate_apply_piece (t := S4x2048) (0 : Fin 2) [⟨S1x2048, x0⟩, ⟨S1x2048, x1⟩, ⟨S1x2048, x2⟩, ⟨S1x2048, x3⟩] h _ 1 (by show (1 : Nat) < 4; decide) S1x2048 x1 rfl rfl 1 rfl (ix2 0 j) hi rfl
  | ⟨2, _⟩ => exact concatenate_apply_piece (t := S4x2048) (0 : Fin 2) [⟨S1x2048, x0⟩, ⟨S1x2048, x1⟩, ⟨S1x2048, x2⟩, ⟨S1x2048, x3⟩] h _ 2 (by show (2 : Nat) < 4; decide) S1x2048 x2 rfl rfl 2 rfl (ix2 0 j) hi rfl
  | ⟨3, _⟩ => exact concatenate_apply_piece (t := S4x2048) (0 : Fin 2) [⟨S1x2048, x0⟩, ⟨S1x2048, x1⟩, ⟨S1x2048, x2⟩, ⟨S1x2048, x3⟩] h _ 3 (by show (3 : Nat) < 4; decide) S1x2048 x3 rfl rfl 3 rfl (ix2 0 j) hi rfl

/-- A matrix given a leading unit axis, at (0, j, k), is the matrix at (j, k). -/
theorem lead_mat {α : Type} (x : S2048x4096.Idx → α) (j : Fin 2048) (k : Fin 4096) :
    broadcastInDim S1x2048x4096 ![1, 2] bcast_S2048x4096_S1x2048x4096_1_2 x (ix3 0 j k) = x (ix2 j k) :=
  broadcastInDim_apply _ bcast_S2048x4096_S1x2048x4096_1_2 x (ix3 0 j k) (ix2 j k) (fun a => match a with
    | ⟨0, _⟩ => by show j.val = if (2048 : Nat) = 1 then 0 else j.val; rw [if_neg (by decide)]
    | ⟨1, _⟩ => by show k.val = if (4096 : Nat) = 1 then 0 else k.val; rw [if_neg (by decide)])

/-- A vector given a leading unit axis, at (0, j), is the vector at j. -/
theorem lead_vec {α : Type} (x : S2048.Idx → α) (j : Fin 2048) :
    broadcastInDim S1x2048 ![1] bcast_S2048_S1x2048_1 x (ix2 0 j) = x (ix1 j) :=
  broadcastInDim_apply _ bcast_S2048_S1x2048_1 x (ix2 0 j) (ix1 j) (fun a => match a with
    | ⟨0, _⟩ => by show j.val = if (2048 : Nat) = 1 then 0 else j.val; rw [if_neg (by decide)])

/-! ## The three arrays the host operations make -/

variable (m : (ℓ : Loc nD τ sig) → Buf (Elt Ideal) ℓ)

/-- The four gates' weight matrices, in the order the program stacks them: forget, input, candidate, output. -/
abbrev wOf (c : Dev nD) : Fin 4 → (S2048x4096.Idx → EReal) :=
  ![m ((c : Thread nD τ).loc main_arg3), m ((c : Thread nD τ).loc main_arg5), m ((c : Thread nD τ).loc main_arg7), m ((c : Thread nD τ).loc main_arg9)]

/-- The four gates' biases, in the same order. -/
abbrev bOf (c : Dev nD) : Fin 4 → (S2048.Idx → EReal) :=
  ![m ((c : Thread nD τ).loc main_arg4), m ((c : Thread nD τ).loc main_arg6), m ((c : Thread nD τ).loc main_arg8), m ((c : Thread nD τ).loc main_arg10)]

/-- The concatenation array: hidden state and input side by side. -/
theorem V_comb (c : Dev nD) : (V m c main_v1 : S4096x4096.Idx → EReal)
    = Cert.Lstm.combOf (m ((c : Thread nD τ).loc main_arg1)) (m ((c : Thread nD τ).loc main_arg0)) := by
  dsimp only [V, hostOps0]
  after_results_simp <;> rfl

/-- The stacked weights, as the host operations' term. -/
theorem V_wst (c : Dev nD) : (V m c main_v7 : S4x2048x4096.Idx → EReal)
    = truncf (F := Ideal) .bf16 (concatenate S4x2048x4096 0 [⟨S1x2048x4096, broadcastInDim S1x2048x4096 ![1, 2] bcast_S2048x4096_S1x2048x4096_1_2 (m ((c : Thread nD τ).loc main_arg3))⟩, ⟨S1x2048x4096, broadcastInDim S1x2048x4096 ![1, 2] bcast_S2048x4096_S1x2048x4096_1_2 (m ((c : Thread nD τ).loc main_arg5))⟩, ⟨S1x2048x4096, broadcastInDim S1x2048x4096 ![1, 2] bcast_S2048x4096_S1x2048x4096_1_2 (m ((c : Thread nD τ).loc main_arg7))⟩, ⟨S1x2048x4096, broadcastInDim S1x2048x4096 ![1, 2] bcast_S2048x4096_S1x2048x4096_1_2 (m ((c : Thread nD τ).loc main_arg9))⟩] concatenates_S1x2048x4096_S1x2048x4096_S1x2048x4096_S1x2048x4096_S4x2048x4096_d0) bitsLt_bf16_f32 := by
  dsimp only [V, hostOps0]
  after_results_simp <;> rfl

/-- The stacked biases, as the host operations' term. -/
theorem V_bst (c : Dev nD) : (V m c main_v12 : S4x2048.Idx → EReal)
    = concatenate S4x2048 0 [⟨S1x2048, broadcastInDim S1x2048 ![1] bcast_S2048_S1x2048_1 (m ((c : Thread nD τ).loc main_arg4))⟩, ⟨S1x2048, broadcastInDim S1x2048 ![1] bcast_S2048_S1x2048_1 (m ((c : Thread nD τ).loc main_arg6))⟩, ⟨S1x2048, broadcastInDim S1x2048 ![1] bcast_S2048_S1x2048_1 (m ((c : Thread nD τ).loc main_arg8))⟩, ⟨S1x2048, broadcastInDim S1x2048 ![1] bcast_S2048_S1x2048_1 (m ((c : Thread nD τ).loc main_arg10))⟩] concatenates_S1x2048_S1x2048_S1x2048_S1x2048_S4x2048_d0 := by
  dsimp only [V, hostOps0]
  after_results_simp <;> rfl

/-- Entry (g, j, k) of the stacked weights is gate g's weight (j, k). -/
theorem wst_at (c : Dev nD) (g : Fin 4) (j : Fin 2048) (k : Fin 4096) :
    (V m c main_v7 : S4x2048x4096.Idx → EReal) (ix3 g j k) = wOf m c g (ix2 j k) := by
  rw [V_wst]
  refine (truncf_apply (ψ := .bf16) _ bitsLt_bf16_f32 _).trans ?_
  refine (stack4_mat _ _ _ _ concatenates_S1x2048x4096_S1x2048x4096_S1x2048x4096_S1x2048x4096_S4x2048x4096_d0 g j k).trans ?_
  match g with
  | ⟨0, _⟩ => exact lead_mat _ j k
  | ⟨1, _⟩ => exact lead_mat _ j k
  | ⟨2, _⟩ => exact lead_mat _ j k
  | ⟨3, _⟩ => exact lead_mat _ j k

/-- Entry (g, j) of the stacked biases is gate g's bias j. -/
theorem bst_at (c : Dev nD) (g : Fin 4) (j : Fin 2048) :
    (V m c main_v12 : S4x2048.Idx → EReal) (ix2 g j) = bOf m c g (ix1 j) := by
  rw [V_bst]
  refine (stack4_vec _ _ _ _ concatenates_S1x2048_S1x2048_S1x2048_S1x2048_S4x2048_d0 g j).trans ?_
  match g with
  | ⟨0, _⟩ => exact lead_vec _ j
  | ⟨1, _⟩ => exact lead_vec _ j
  | ⟨2, _⟩ => exact lead_vec _ j
  | ⟨3, _⟩ => exact lead_vec _ j

end Cert.KernelIdeal.HostReads

end
-- ==== Proof.PayloadAt.lean ====
/-
  The kernel body's arithmetic read at an index, on the extended reals.

  At a grid point the body holds a 512 × 4096 block of the concatenation, a 4 × 256 × 4096 block of the stacked weights,
  a 4 × 256 block of the stacked biases and a 512 × 256 block of the old cell state.  Each gate `g` is the product of the
  first block with the transpose of rows `g` of the second (both contracted along their last axis, into a zero
  accumulator), plus row `g` of the biases repeated over the 512 rows:
      blockGate g (p, q) = (∑ k, x0 (p, k) · x1 (g, q, k)) + x2 (g, q) .
  The stored cell state at `(p, q)` is  σ(gate 0) · x3 (p, q) + σ(gate 1) · tanh(gate 2)  and the stored hidden state
  σ(gate 3) · tanh(stored cell state), all operations entry by entry.
-/
import proofs.«147393_j58385785422053_1_alg».proof.Proof.IdealFrame
import proofs.«147393_j58385785422053_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayAt

open Cert.KernelIdeal Cert.KernelIdeal.Gen Cert.KernelIdeal.Frm Idealize.ShloMosaic Idealize.ShloMosaic.ValueIdx

/-- A gate's pre-activation inside one grid point's blocks: row p of the 512 × 4096 block of the concatenation against row q of gate g's 256 weight rows, plus gate g's bias entry q. -/
def blockGate (x0 : Vec Ideal S512x4096 .bf16) (x1 : Vec Ideal S4x256x4096 .bf16) (x2 : Vec Ideal S4x256 .f32) (g : Fin 4) (p : Fin 512) (q : Fin 256) : EReal :=
  (∑ k : Fin 4096, x0 (ix2 p k) * x1 (ix3 g q k)) + x2 (ix2 g q)

/-! ## The contraction's operand indices

The product contracts axis 1 of both operands: at output `(p, q)` and contraction coordinate `k` the left operand is
read at `(p, k)` and the right at `(q, k)`. -/

theorem lhs_dot_0 (i : S512x256.Idx) (c : dot_S512x4096_S256x4096_S512x256_1_1_0_0_n_n.contr.Idx) :
    (dot_S512x4096_S256x4096_S512x256_1_1_0_0_n_n.lhsIdx i c 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem lhs_dot_1 (i : S512x256.Idx) (c : dot_S512x4096_S256x4096_S512x256_1_1_0_0_n_n.contr.Idx) :
    (dot_S512x4096_S256x4096_S512x256_1_1_0_0_n_n.lhsIdx i c 1).val = (c ⟨0, by decide⟩).val :=
  dot_S512x4096_S256x4096_S512x256_1_1_0_0_n_n.lhsIdx_val_of_single rfl i c
theorem rhs_dot_0 (i : S512x256.Idx) (c : dot_S512x4096_S256x4096_S512x256_1_1_0_0_n_n.contr.Idx) :
    (dot_S512x4096_S256x4096_S512x256_1_1_0_0_n_n.rhsIdx i c 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem rhs_dot_1 (i : S512x256.Idx) (c : dot_S512x4096_S256x4096_S512x256_1_1_0_0_n_n.contr.Idx) :
    (dot_S512x4096_S256x4096_S512x256_1_1_0_0_n_n.rhsIdx i c 1).val = (c ⟨0, by decide⟩).val :=
  dot_S512x4096_S256x4096_S512x256_1_1_0_0_n_n.rhsIdx_val_of_single rfl i c

/-- The product into a zero accumulator at `(p, q)`: row `p` of the left operand against row `q` of the right. -/
theorem matmulZero_apply (a : FVec Ideal S512x4096 .bf16) (b : FVec Ideal S256x4096 .bf16) (p : Fin 512) (q : Fin 256) :
    matmul dot_S512x4096_S256x4096_S512x256_1_1_0_0_n_n none a b (constant S512x256 .f32 0x00000000#32) (ix2 p q)
      = ∑ k : Fin 4096, a (ix2 p k) * b (ix2 q k) := by
  simp only [matmul]
  rw [Ideal.matmul_constant_zero_apply, ← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 p q) ((ValueIdx.contrEquiv1 dot_S512x4096_S256x4096_S512x256_1_1_0_0_n_n 4096 rfl rfl).symm k) = ix2 p k := funext fun a => Fin.ext (by
    match a with
    | ⟨0, _⟩ => exact lhs_dot_0 _ _
    | ⟨1, _⟩ => exact (lhs_dot_1 _ _).trans hk)
  have er : dot_S512x4096_S256x4096_S512x256_1_1_0_0_n_n.rhsIdx (ix2 p q) ((ValueIdx.contrEquiv1 dot_S512x4096_S256x4096_S512x256_1_1_0_0_n_n 4096 rfl rfl).symm k) = ix2 q k := funext fun a => Fin.ext (by
    match a with
    | ⟨0, _⟩ => exact rhs_dot_0 _ _
    | ⟨1, _⟩ => exact (rhs_dot_1 _ _).trans hk)
  rw [el, er]

/-! ## The layout operations of the body -/

/-- The block of the concatenation passes through a cast to its own shape. -/
theorem pay3_eq (v0 : Vec Ideal S512x4096 .bf16) : k0_pay3 (F := Ideal) v0 = v0 := by
  unfold k0_pay3
  exact shapeCast_self v0 _

/-- A bias row `[1, 256]` cast to `[256]` and back, then repeated over the 512 rows, reads its entry `q` at every `(p, q)`. -/
theorem biasRow_apply (v5 : Vec Ideal S1x256 .f32) (p : Fin 512) (q : Fin 256) :
    broadcastTo S512x256 (shapeCast S1x256 (shapeCast S256 v5 shapeCasts_S1x256_S256) shapeCasts_S256_S1x256) broadcasts_S1x256_S512x256 (ix2 p q)
      = v5 (ix2 (0 : Fin 1) q) := by
  rw [broadcastTo_1b_ab_apply, shapeCast_a_1a_apply, shapeCast_1a_a_apply]

/-- Payload 4 at `(p, q)`: the row `p` of the block against row `q` of the weight block, plus the bias entry `q`. -/
theorem pay4_apply (v0 : Vec Ideal S512x4096 .bf16) (v2 : Vec Ideal S1x256x4096 .bf16) (v5 : Vec Ideal S1x256 .f32)
    (p : Fin 512) (q : Fin 256) :
    k0_pay4 (F := Ideal) v0 v2 v5 (ix2 p q)
      = (∑ k : Fin 4096, v0 (ix2 p k) * v2 (ix3 (0 : Fin 1) q k)) + v5 (ix2 (0 : Fin 1) q) := by
  unfold k0_pay4
  refine (addf_apply _ _ _).trans ?_
  rw [matmulZero_apply, biasRow_apply]
  refine congrArg (· + v5 (ix2 (0 : Fin 1) q)) (Finset.sum_congr rfl fun k _ => ?_)
  rw [pay3_eq, shapeCast_1ab_ab_apply]

/-- Payload 5 at `(p, q)`: the row `p` of the block against row `q` of the weight block, plus the bias entry `q`. -/
theorem pay5_apply (v0 : Vec Ideal S512x4096 .bf16) (v2 : Vec Ideal S1x256x4096 .bf16) (v5 : Vec Ideal S1x256 .f32)
    (p : Fin 512) (q : Fin 256) :
    k0_pay5 (F := Ideal) v0 v2 v5 (ix2 p q)
      = (∑ k : Fin 4096, v0 (ix2 p k) * v2 (ix3 (0 : Fin 1) q k)) + v5 (ix2 (0 : Fin 1) q) := by
  unfold k0_pay5
  refine (addf_apply _ _ _).trans ?_
  rw [matmulZero_apply, biasRow_apply]
  refine congrArg (· + v5 (ix2 (0 : Fin 1) q)) (Finset.sum_congr rfl fun k _ => ?_)
  rw [pay3_eq, shapeCast_1ab_ab_apply]

/-- Payload 6 at `(p, q)`: the row `p` of the block against row `q` of the weight block, plus the bias entry `q`. -/
theorem pay6_apply (v0 : Vec Ideal S512x4096 .bf16) (v2 : Vec Ideal S1x256x4096 .bf16) (v5 : Vec Ideal S1x256 .f32)
    (p : Fin 512) (q : Fin 256) :
    k0_pay6 (F := Ideal) v0 v2 v5 (ix2 p q)
      = (∑ k : Fin 4096, v0 (ix2 p k) * v2 (ix3 (0 : Fin 1) q k)) + v5 (ix2 (0 : Fin 1) q) := by
  unfold k0_pay6
  refine (addf_apply _ _ _).trans ?_
  rw [matmulZero_apply, biasRow_apply]
  refine congrArg (· + v5 (ix2 (0 : Fin 1) q)) (Finset.sum_congr rfl fun k _ => ?_)
  rw [pay3_eq, shapeCast_1ab_ab_apply]

/-- Payload 7 at `(p, q)`: the product alone. -/
theorem pay7_apply (v0 : Vec Ideal S512x4096 .bf16) (v26 : Vec Ideal S1x256x4096 .bf16) (p : Fin 512) (q : Fin 256) :
    k0_pay7 (F := Ideal) v0 v26 (ix2 p q) = ∑ k : Fin 4096, v0 (ix2 p k) * v26 (ix3 (0 : Fin 1) q k) := by
  unfold k0_pay7
  rw [matmulZero_apply]
  refine Finset.sum_congr rfl fun k _ => ?_
  rw [pay3_eq, shapeCast_1ab_ab_apply]

/-- Payload 8: the bias row cast to `[256]` and back is itself. -/
theorem pay8_apply (v29 : Vec Ideal S1x256 .f32) (u : Fin 1) (q : Fin 256) :
    k0_pay8 (F := Ideal) v29 (ix2 u q) = v29 (ix2 (0 : Fin 1) q) := by
  unfold k0_pay8
  rw [shapeCast_a_1a_apply, shapeCast_1a_a_apply]

/-- Payload 1 at an index: the cell-state formula entry by entry. -/
theorem pay1_apply (v9 v17 v25 : FVec Ideal S512x256 .f32) (v38 : Vec Ideal S512x256 .f32) (i : S512x256.Idx) :
    k0_pay1 (F := Ideal) v9 v17 v25 v38 i
      = Ideal.logistic (v9 i) * v38 i + Ideal.logistic (v17 i) * Ideal.tanh (v25 i) := rfl

/-- Payload 2 at `(p, q)`: the output gate (its product plus its bias row) times tanh of the cell state. -/
theorem pay2_apply (v9 v17 v25 v28 : FVec Ideal S512x256 .f32) (v31 : FVec Ideal S1x256 .f32) (v38 : Vec Ideal S512x256 .f32)
    (p : Fin 512) (q : Fin 256) :
    k0_pay2 (F := Ideal) v9 v17 v25 v28 v31 v38 (ix2 p q)
      = Ideal.logistic (v28 (ix2 p q) + v31 (ix2 (0 : Fin 1) q)) * Ideal.tanh (k0_pay1 (F := Ideal) v9 v17 v25 v38 (ix2 p q)) := by
  unfold k0_pay2
  refine (mulf_apply _ _ _).trans ?_
  refine congrArg (· * Ideal.tanh (k0_pay1 (F := Ideal) v9 v17 v25 v38 (ix2 p q))) ?_
  refine congrArg Ideal.logistic ?_
  refine (addf_apply _ _ _).trans ?_
  rw [broadcastTo_1b_ab_apply]

/-! ## The body's loads

A load through a unit-stride rectangle reads the block at the rectangle's offset plus the local index. -/

/-- Rows `g` of the stacked weights: the `[1, 256, 4096]` rectangle at offset `(g, 0, 0)`. -/
theorem ld_rows3 (x1 : Vec Ideal S4x256x4096 .bf16) (off : Fin 3 → Nat)
    (inb : ∀ a, off a + S1x256x4096.size a ≤ S4x256x4096.size a) (g : Fin 4)
    (h0 : off 0 = g.val) (h1 : off 1 = 0) (h2 : off 2 = 0) (q : Fin 256) (k : Fin 4096) :
    View.ld x1 (Rect.unit (s := S4x256x4096) off S1x256x4096.size inb) (ix3 (0 : Fin 1) q k) = x1 (ix3 g q k) := by
  refine congrArg x1 (funext fun a => Fin.ext ?_)
  match a with
  | ⟨0, _⟩ => show off 0 + 1 * 0 = g.val; omega
  | ⟨1, _⟩ => show off 1 + 1 * q.val = q.val; omega
  | ⟨2, _⟩ => show off 2 + 1 * k.val = k.val; omega

/-- Row `g` of the stacked biases: the `[1, 256]` rectangle at offset `(g, 0)`. -/
theorem ld_rows2 (x2 : Vec Ideal S4x256 .f32) (off : Fin 2 → Nat)
    (inb : ∀ a, off a + S1x256.size a ≤ S4x256.size a) (g : Fin 4)
    (h0 : off 0 = g.val) (h1 : off 1 = 0) (q : Fin 256) :
    View.ld x2 (Rect.unit (s := S4x256) off S1x256.size inb) (ix2 (0 : Fin 1) q) = x2 (ix2 g q) := by
  refine congrArg x2 (funext fun a => Fin.ext ?_)
  match a with
  | ⟨0, _⟩ => show off 0 + 1 * 0 = g.val; omega
  | ⟨1, _⟩ => show off 1 + 1 * q.val = q.val; omega

theorem ldW0 (x1 : Vec Ideal S4x256x4096 .bf16) (q : Fin 256) (k : Fin 4096) :
    View.ld x1 rW0 (ix3 (0 : Fin 1) q k) = x1 (ix3 (0 : Fin 4) q k) :=
  ld_rows3 x1 _ _ 0 rfl rfl rfl q k
theorem ldW1 (x1 : Vec Ideal S4x256x4096 .bf16) (q : Fin 256) (k : Fin 4096) :
    View.ld x1 rW1 (ix3 (0 : Fin 1) q k) = x1 (ix3 (1 : Fin 4) q k) :=
  ld_rows3 x1 _ _ 1 rfl rfl rfl q k
theorem ldW2 (x1 : Vec Ideal S4x256x4096 .bf16) (q : Fin 256) (k : Fin 4096) :
    View.ld x1 rW2 (ix3 (0 : Fin 1) q k) = x1 (ix3 (2 : Fin 4) q k) :=
  ld_rows3 x1 _ _ 2 rfl rfl rfl q k
theorem ldW3 (x1 : Vec Ideal S4x256x4096 .bf16) (q : Fin 256) (k : Fin 4096) :
    View.ld x1 rW3 (ix3 (0 : Fin 1) q k) = x1 (ix3 (3 : Fin 4) q k) :=
  ld_rows3 x1 _ _ 3 rfl rfl rfl q k

theorem ldB0 (x2 : Vec Ideal S4x256 .f32) (q : Fin 256) :
    View.ld x2 rB0 (ix2 (0 : Fin 1) q) = x2 (ix2 (0 : Fin 4) q) :=
  ld_rows2 x2 _ _ 0 rfl rfl q
theorem ldB1 (x2 : Vec Ideal S4x256 .f32) (q : Fin 256) :
    View.ld x2 rB1 (ix2 (0 : Fin 1) q) = x2 (ix2 (1 : Fin 4) q) :=
  ld_rows2 x2 _ _ 1 rfl rfl q
theorem ldB2 (x2 : Vec Ideal S4x256 .f32) (q : Fin 256) :
    View.ld x2 rB2 (ix2 (0 : Fin 1) q) = x2 (ix2 (2 : Fin 4) q) :=
  ld_rows2 x2 _ _ 2 rfl rfl q
theorem ldB3 (x2 : Vec Ideal S4x256 .f32) (q : Fin 256) :
    View.ld x2 rB3 (ix2 (0 : Fin 1) q) = x2 (ix2 (3 : Fin 4) q) :=
  ld_rows2 x2 _ _ 3 rfl rfl q

/-- The whole block of the concatenation. -/
theorem ldX (x0 : Vec Ideal S512x4096 .bf16) (p : Fin 512) (k : Fin 4096) : View.ld x0 rX (ix2 p k) = x0 (ix2 p k) := by
  refine congrArg x0 (funext fun a => Fin.ext ?_)
  match a with
  | ⟨0, _⟩ => show 0 + 1 * p.val = p.val; omega
  | ⟨1, _⟩ => show 0 + 1 * k.val = k.val; omega

/-- The whole block of the old cell state. -/
theorem ldO (x3 : Vec Ideal S512x256 .f32) (p : Fin 512) (q : Fin 256) : View.ld x3 rO (ix2 p q) = x3 (ix2 p q) := by
  refine congrArg x3 (funext fun a => Fin.ext ?_)
  match a with
  | ⟨0, _⟩ => show 0 + 1 * p.val = p.val; omega
  | ⟨1, _⟩ => show 0 + 1 * q.val = q.val; omega

/-! ## The gates from the loads -/

/-- Gate 0's pre-activation as the body computes it from its loads. -/
theorem gate0_apply (x0 : Vec Ideal S512x4096 .bf16) (x1 : Vec Ideal S4x256x4096 .bf16) (x2 : Vec Ideal S4x256 .f32)
    (p : Fin 512) (q : Fin 256) :
    k0_pay4 (F := Ideal) (View.ld x0 rX) (View.ld x1 rW0) (View.ld x2 rB0) (ix2 p q) = blockGate x0 x1 x2 0 p q := by
  rw [pay4_apply, ldB0]
  unfold blockGate
  refine congrArg (· + x2 (ix2 (0 : Fin 4) q)) (Finset.sum_congr rfl fun k _ => ?_)
  rw [ldX, ldW0]

/-- Gate 1's pre-activation as the body computes it from its loads. -/
theorem gate1_apply (x0 : Vec Ideal S512x4096 .bf16) (x1 : Vec Ideal S4x256x4096 .bf16) (x2 : Vec Ideal S4x256 .f32)
    (p : Fin 512) (q : Fin 256) :
    k0_pay5 (F := Ideal) (View.ld x0 rX) (View.ld x1 rW1) (View.ld x2 rB1) (ix2 p q) = blockGate x0 x1 x2 1 p q := by
  rw [pay5_apply, ldB1]
  unfold blockGate
  refine congrArg (· + x2 (ix2 (1 : Fin 4) q)) (Finset.sum_congr rfl fun k _ => ?_)
  rw [ldX, ldW1]

/-- Gate 2's pre-activation as the body computes it from its loads. -/
theorem gate2_apply (x0 : Vec Ideal S512x4096 .bf16) (x1 : Vec Ideal S4x256x4096 .bf16) (x2 : Vec Ideal S4x256 .f32)
    (p : Fin 512) (q : Fin 256) :
    k0_pay6 (F := Ideal) (View.ld x0 rX) (View.ld x1 rW2) (View.ld x2 rB2) (ix2 p q) = blockGate x0 x1 x2 2 p q := by
  rw [pay6_apply, ldB2]
  unfold blockGate
  refine congrArg (· + x2 (ix2 (2 : Fin 4) q)) (Finset.sum_congr rfl fun k _ => ?_)
  rw [ldX, ldW2]

/-- Gate 3's pre-activation: the body keeps its product and its bias row apart until the hidden state is formed. -/
theorem gate3_apply (x0 : Vec Ideal S512x4096 .bf16) (x1 : Vec Ideal S4x256x4096 .bf16) (x2 : Vec Ideal S4x256 .f32)
    (p : Fin 512) (q : Fin 256) :
    k0_pay7 (F := Ideal) (View.ld x0 rX) (View.ld x1 rW3) (ix2 p q) + k0_pay8 (F := Ideal) (View.ld x2 rB3) (ix2 (0 : Fin 1) q)
      = blockGate x0 x1 x2 3 p q := by
  rw [pay7_apply, pay8_apply, ldB3]
  unfold blockGate
  refine congrArg (· + x2 (ix2 (3 : Fin 4) q)) (Finset.sum_congr rfl fun k _ => ?_)
  rw [ldX, ldW3]

/-! ## What the body stores, at an index -/

theorem cPay_apply (x0 : Vec Ideal S512x4096 .bf16) (x1 : Vec Ideal S4x256x4096 .bf16) (x2 : Vec Ideal S4x256 .f32) (x3 : Vec Ideal S512x256 .f32) (p : Fin 512) (q : Fin 256) :
    cPay (F := Ideal) x0 x1 x2 x3 (ix2 p q)
      = Ideal.logistic (blockGate x0 x1 x2 0 p q) * x3 (ix2 p q) + Ideal.logistic (blockGate x0 x1 x2 1 p q) * Ideal.tanh (blockGate x0 x1 x2 2 p q) := by
  unfold cPay
  rw [pay1_apply, gate0_apply, gate1_apply, gate2_apply, ldO]

theorem hPay_apply (x0 : Vec Ideal S512x4096 .bf16) (x1 : Vec Ideal S4x256x4096 .bf16) (x2 : Vec Ideal S4x256 .f32) (x3 : Vec Ideal S512x256 .f32) (p : Fin 512) (q : Fin 256) :
    hPay (F := Ideal) x0 x1 x2 x3 (ix2 p q)
      = Ideal.logistic (blockGate x0 x1 x2 3 p q) * Ideal.tanh (cPay (F := Ideal) x0 x1 x2 x3 (ix2 p q)) := by
  unfold hPay
  rw [pay2_apply, gate3_apply]
  rfl

end Cert.KernelIdeal.PayAt

end
-- ==== Proof.Arrays.lean ====
/-
  From blocks to arrays: what the two result arrays hold after the run, as functions of the argument arrays.

  At grid point t, with (a, b) the block index of the outputs, the body sees rows a·512 … a·512 + 511 of the concatenation,
  rows b·256 … b·256 + 255 of each gate's weights and the same entries of each gate's bias, and the (a, b) block of the old
  cell state.  A gate's pre-activation inside those blocks at (p, q) is therefore the gate's pre-activation of the whole
  arrays at (a·512 + p, b·256 + q), so the block the point writes back is block (a, b) of the new hidden state, and of
  the new cell state.  The 8 × 8 blocks tile the [4096, 2048] arrays, one point each, so each array ends as that function.
-/
import proofs.«147393_j58385785422053_1_alg».proof.Proof.IdealFrame
import proofs.«147393_j58385785422053_1_alg».proof.Proof.Spec
import Idealize.ShloMosaic.Lib.Pipeline.Value
import Idealize.ShloMosaic.Lib.StableHlo.Run
import proofs.«147393_j58385785422053_1_alg».proof.Proof.HostReads
import proofs.«147393_j58385785422053_1_alg».proof.Proof.PayloadAt
set_option maxRecDepth 16384

noncomputable section

namespace Cert.KernelIdeal.Arr

open Cert.KernelIdeal Cert.KernelIdeal.Gen Cert.KernelIdeal.Frm Idealize.ShloMosaic Idealize.ShloMosaic.TcCoe Idealize.SL.Sem
open Idealize.ShloMosaic.Pipeline (Dat)
open Idealize.ShloMosaic.ValueIdx Idealize.ShloMosaic.StableHlo

open Cert.KernelIdeal.HostReads
open Cert.KernelIdeal.PayAt

variable (m : (ℓ : Loc nD τ sig) → Buf (Elt Ideal) ℓ) (ρ : Dev nD → PrngReg)

/-! ## The two results as functions of the arguments -/

/-- The concatenation of the launch contents of the previous hidden state and the input. -/
abbrev comb (c : Dev nD) : Cert.Lstm.Sbc.Idx → EReal :=
  Cert.Lstm.combOf (m ((c : Thread nD τ).loc main_arg1)) (m ((c : Thread nD τ).loc main_arg0))

/-- The new cell state of the launch contents. -/
abbrev cellOut (c : Dev nD) : S4096x2048.Idx → EReal :=
  Cert.Lstm.cell (comb m c) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg2))

/-- The new hidden state of the launch contents. -/
abbrev hiddenOut (c : Dev nD) : S4096x2048.Idx → EReal :=
  Cert.Lstm.hidden (comb m c) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg2))

/-! ## The grid: which block of each array a point works on -/

/-- With (a, b) the block index of the two outputs at point t: the concatenation's block is (a, 0), the stacked weights'
    (0, b, 0), the stacked biases' (0, b), the old cell state's (a, b); a and b run over 0 … 7. -/
theorem idx_facts : ∀ t : Fin cfg0.N,
    win0_0.index t (0 : Fin 2) = win0_4.index t (0 : Fin 2) ∧ win0_0.index t (1 : Fin 2) = 0
    ∧ win0_1.index t (0 : Fin 3) = 0 ∧ win0_1.index t (1 : Fin 3) = win0_4.index t (1 : Fin 2) ∧ win0_1.index t (2 : Fin 3) = 0
    ∧ win0_2.index t (0 : Fin 2) = 0 ∧ win0_2.index t (1 : Fin 2) = win0_4.index t (1 : Fin 2)
    ∧ win0_3.index t (0 : Fin 2) = win0_4.index t (0 : Fin 2) ∧ win0_3.index t (1 : Fin 2) = win0_4.index t (1 : Fin 2)
    ∧ win0_5.index t (0 : Fin 2) = win0_4.index t (0 : Fin 2) ∧ win0_5.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every block index (a, b) is some point's. -/
theorem idx_onto : ∀ (a : Fin 8) (b : Fin 8), ∃ t : Fin cfg0.N, win0_4.index t = ![a.val, b.val] :=
  (by decide +kernel : ∀ (a : Fin 8) (b : Fin 8), ∃ t : Fin grid0.N, win0_4.index t = ![a.val, b.val])

/-! ## The input blocks at a point, by their literal types -/

abbrev xblk (c : Dev nD) (t : Fin cfg0.N) : Vec Ideal S512x4096 .bf16 := iblk m c 0 t
abbrev wblk (c : Dev nD) (t : Fin cfg0.N) : Vec Ideal S4x256x4096 .bf16 := iblk m c 1 t
abbrev bblk (c : Dev nD) (t : Fin cfg0.N) : Vec Ideal S4x256 .f32 := iblk m c 2 t
abbrev cblk (c : Dev nD) (t : Fin cfg0.N) : Vec Ideal S512x256 .f32 := iblk m c 3 t

/-- Row p, column k of the concatenation's block at t is row a·512 + p, column k of the concatenation. -/
theorem xblk_at (c : Dev nD) (t : Fin cfg0.N) (p : Fin 512) (k : Fin 4096) (r : Fin 4096)
    (hr : r.val = win0_4.index t (0 : Fin 2) * 512 + p.val) :
    xblk m c t (ix2 p k) = comb m c (ix2 r k) := by
  show _ = Cert.Lstm.combOf (m ((c : Thread nD τ).loc main_arg1)) (m ((c : Thread nD τ).loc main_arg0)) (ix2 r k)
  rw [← V_comb m c]
  show V m c main_v1 (((cfg0.win 0).blk t).view.emb (ix2 p k)) = V m c main_v1 (ix2 r k)
  obtain ⟨e0, e1, -⟩ := idx_facts t
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- Entry (g, q, k) of the stacked weights' block at t is gate g's weight (b·256 + q, k). -/
theorem wblk_at (c : Dev nD) (t : Fin cfg0.N) (g : Fin 4) (q : Fin 256) (k : Fin 4096) (j : Fin 2048)
    (hj : j.val = win0_4.index t (1 : Fin 2) * 256 + q.val) :
    wblk m c t (ix3 g q k) = wOf m c g (ix2 j k) := by
  rw [← wst_at m c g j k]
  show V m c main_v7 (((cfg0.win 1).blk t).view.emb (ix3 g q k)) = V m c main_v7 (ix3 g j k)
  obtain ⟨-, -, e2, e3, e4, -⟩ := idx_facts t
  refine congrArg _ (funext fun a => Fin.ext ?_)
  match a with
  | ⟨0, _⟩ => show win0_1.index t (0 : Fin 3) * 4 + 1 * g.val = g.val; omega
  | ⟨1, _⟩ => show win0_1.index t (1 : Fin 3) * 256 + 1 * q.val = j.val; omega
  | ⟨2, _⟩ => show win0_1.index t (2 : Fin 3) * 4096 + 1 * k.val = k.val; omega

/-- Entry (g, q) of the stacked biases' block at t is gate g's bias b·256 + q. -/
theorem bblk_at (c : Dev nD) (t : Fin cfg0.N) (g : Fin 4) (q : Fin 256) (j : Fin 2048)
    (hj : j.val = win0_4.index t (1 : Fin 2) * 256 + q.val) :
    bblk m c t (ix2 g q) = bOf m c g (ix1 j) := by
  rw [← bst_at m c g j]
  show V m c main_v12 (((cfg0.win 2).blk t).view.emb (ix2 g q)) = V m c main_v12 (ix2 g j)
  obtain ⟨-, -, -, -, -, e5, e6, -⟩ := idx_facts t
  refine congrArg _ (funext fun a => Fin.ext ?_)
  match a with
  | ⟨0, _⟩ => show win0_2.index t (0 : Fin 2) * 4 + 1 * g.val = g.val; omega
  | ⟨1, _⟩ => show win0_2.index t (1 : Fin 2) * 256 + 1 * q.val = j.val; omega

/-- Entry (p, q) of the old cell state's block at t is the old cell state at (a·512 + p, b·256 + q). -/
theorem cblk_at (c : Dev nD) (t : Fin cfg0.N) (p : Fin 512) (q : Fin 256) (r : Fin 4096) (j : Fin 2048)
    (hr : r.val = win0_4.index t (0 : Fin 2) * 512 + p.val) (hj : j.val = win0_4.index t (1 : Fin 2) * 256 + q.val) :
    cblk m c t (ix2 p q) = m ((c : Thread nD τ).loc main_arg2) (ix2 r j) := by
  rw [← V_main_arg2 m c]
  show V m c main_arg2 (((cfg0.win 3).blk t).view.emb (ix2 p q)) = V m c main_arg2 (ix2 r j)
  obtain ⟨-, -, -, -, -, -, -, e7, e8, -⟩ := idx_facts t
  refine congrArg _ (funext fun a => Fin.ext ?_)
  match a with
  | ⟨0, _⟩ => show win0_3.index t (0 : Fin 2) * 512 + 1 * p.val = r.val; omega
  | ⟨1, _⟩ => show win0_3.index t (1 : Fin 2) * 256 + 1 * q.val = j.val; omega

/-- A gate's pre-activation inside the point's blocks is the gate's pre-activation of the whole arrays at the entry the
    point's output block puts there. -/
theorem gate_blk (c : Dev nD) (t : Fin cfg0.N) (g : Fin 4) (p : Fin 512) (q : Fin 256) (r : Fin 4096) (j : Fin 2048)
    (hr : r.val = win0_4.index t (0 : Fin 2) * 512 + p.val) (hj : j.val = win0_4.index t (1 : Fin 2) * 256 + q.val) :
    blockGate (xblk m c t) (wblk m c t) (bblk m c t) g p q = Cert.Lstm.gate (comb m c) (wOf m c g) (bOf m c g) r j := by
  unfold blockGate Cert.Lstm.gate
  rw [bblk_at m c t g q j hj]
  refine congrArg (· + _) (Finset.sum_congr rfl fun k _ => ?_)
  rw [xblk_at m c t p k r hr, wblk_at m c t g q k j hj]

theorem hz2 : (![0, 0] : Fin 2 → Nat) = fun _ => 0 := funext fun a => by fin_cases a <;> rfl

/-- The entry of the arrays that entry (p, q) of the point's output block is. -/
theorem out_emb (t : Fin cfg0.N) (p : Fin 512) (q : Fin 256) :
    ∃ (r : Fin 4096) (j : Fin 2048), r.val = win0_4.index t (0 : Fin 2) * 512 + p.val ∧ j.val = win0_4.index t (1 : Fin 2) * 256 + q.val
      ∧ ((cfg0.win 4).blk t).view.emb (ix2 p q) = ix2 r j ∧ ((cfg0.win 5).blk t).view.emb (ix2 p q) = ix2 r j := by
  obtain ⟨-, -, -, -, -, -, -, -, -, e9, e10, b0, b1⟩ := idx_facts t
  refine ⟨⟨win0_4.index t (0 : Fin 2) * 512 + p.val, by have := p.isLt; omega⟩, ⟨win0_4.index t (1 : Fin 2) * 256 + q.val, by have := q.isLt; omega⟩, rfl, rfl, ?_, ?_⟩
  · funext a; apply Fin.ext
    match a with
    | ⟨0, _⟩ => show win0_4.index t (0 : Fin 2) * 512 + 1 * p.val = win0_4.index t (0 : Fin 2) * 512 + p.val; omega
    | ⟨1, _⟩ => show win0_4.index t (1 : Fin 2) * 256 + 1 * q.val = win0_4.index t (1 : Fin 2) * 256 + q.val; omega
  · funext a; apply Fin.ext
    match a with
    | ⟨0, _⟩ => show win0_5.index t (0 : Fin 2) * 512 + 1 * p.val = win0_4.index t (0 : Fin 2) * 512 + p.val; omega
    | ⟨1, _⟩ => show win0_5.index t (1 : Fin 2) * 256 + 1 * q.val = win0_4.index t (1 : Fin 2) * 256 + q.val; omega

/-- The stored cell-state block at (p, q) is the new cell state at the entry the block puts there. -/
theorem cPay_blk (c : Dev nD) (t : Fin cfg0.N) (p : Fin 512) (q : Fin 256) (r : Fin 4096) (j : Fin 2048)
    (hr : r.val = win0_4.index t (0 : Fin 2) * 512 + p.val) (hj : j.val = win0_4.index t (1 : Fin 2) * 256 + q.val) :
    cPay (F := Ideal) (xblk m c t) (wblk m c t) (bblk m c t) (cblk m c t) (ix2 p q) = cellOut m c (ix2 r j) := by
  refine (cPay_apply _ _ _ _ p q).trans ?_
  rw [gate_blk m c t 0 p q r j hr hj, gate_blk m c t 1 p q r j hr hj, gate_blk m c t 2 p q r j hr hj, cblk_at m c t p q r j hr hj]
  rfl

/-- The stored hidden-state block at (p, q) is the new hidden state at the entry the block puts there. -/
theorem hPay_blk (c : Dev nD) (t : Fin cfg0.N) (p : Fin 512) (q : Fin 256) (r : Fin 4096) (j : Fin 2048)
    (hr : r.val = win0_4.index t (0 : Fin 2) * 512 + p.val) (hj : j.val = win0_4.index t (1 : Fin 2) * 256 + q.val) :
    hPay (F := Ideal) (xblk m c t) (wblk m c t) (bblk m c t) (cblk m c t) (ix2 p q) = hiddenOut m c (ix2 r j) := by
  refine (hPay_apply _ _ _ _ p q).trans ?_
  rw [gate_blk m c t 3 p q r j hr hj, cPay_blk m c t p q r j hr hj]
  rfl

/-! ## What a point writes back -/

/-- Point t writes back block t of the new hidden state. -/
theorem flushed4_eq (c : Dev nD) (t : Fin cfg0.N) :
    (dats m 0 c).flushed 4 t = ((cfg0.win 4).blk t).view.read (Elt Ideal) (hiddenOut m c) := by
  show (cfg0.win 4).cut (grid0.coords t) ((dats m 0 c).after 4 t) = _
  rw [after0_4]
  unfold out0_4
  rw [View.canon_unit_zero hz2]
  funext y
  obtain ⟨p, q, rfl⟩ : ∃ (p : Fin 512) (q : Fin 256), y = ix2 p q := ⟨y 0, y 1, eq_ix2 y⟩
  obtain ⟨r, j, hr, hj, e4, -⟩ := out_emb t p q
  show hPay (F := Ideal) (xblk m c t) (wblk m c t) (bblk m c t) (cblk m c t) (ix2 p q) = hiddenOut m c (((cfg0.win 4).blk t).view.emb (ix2 p q))
  rw [e4]
  exact hPay_blk m c t p q r j hr hj

/-- Point t writes back block t of the new cell state. -/
theorem flushed5_eq (c : Dev nD) (t : Fin cfg0.N) :
    (dats m 0 c).flushed 5 t = ((cfg0.win 5).blk t).view.read (Elt Ideal) (cellOut m c) := by
  show (cfg0.win 5).cut (grid0.coords t) ((dats m 0 c).after 5 t) = _
  rw [after0_5]
  unfold out0_5
  rw [View.canon_unit_zero hz2]
  funext y
  obtain ⟨p, q, rfl⟩ : ∃ (p : Fin 512) (q : Fin 256), y = ix2 p q := ⟨y 0, y 1, eq_ix2 y⟩
  obtain ⟨r, j, hr, hj, -, e5⟩ := out_emb t p q
  show cPay (F := Ideal) (xblk m c t) (wblk m c t) (bblk m c t) (cblk m c t) (ix2 p q) = cellOut m c (((cfg0.win 5).blk t).view.emb (ix2 p q))
  rw [e5]
  exact cPay_blk m c t p q r j hr hj

/-! ## The blocks tile the arrays -/

theorem mem_blk4 (t : Fin cfg0.N) (i : S4096x2048.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v13_0).slice (win0_4.rect t)).set ↔ _
  rw [View.set_slice_whole, Rect.mem_set_unit]
  exact Iff.rfl

theorem mem_blk5 (t : Fin cfg0.N) (i : S4096x2048.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v13_1).slice (win0_5.rect t)).set ↔ _
  rw [View.set_slice_whole, Rect.mem_set_unit]
  exact Iff.rfl

/-- Entry (r, j) lies in the block of the point whose block index is (r / 512, j / 256). -/
theorem cover4 (i : S4096x2048.Idx) : ∃ t : Fin cfg0.N, (cfg0.win 4).flush t = true ∧ i ∈ ((cfg0.win 4).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

theorem cover5 (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  obtain ⟨-, -, -, -, -, -, -, -, -, e9, e10, -⟩ := idx_facts t
  have q0 : win0_4.index t (0 : Fin 2) = (i 0).val / 512 := congrFun ht 0
  have q1 : win0_4.index t (1 : Fin 2) = (i 1).val / 256 := congrFun ht 1
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-! ## The arrays after the run -/

theorem final4 (c : Dev nD) : (dats m 0 c).arrAt 4 cfg0.N = hiddenOut m c :=
  (dats m 0 c).arrAt_eq_of_cover 4 (hiddenOut m c) (fun t _ => flushed4_eq m c t) cover4

theorem final5 (c : Dev nD) : (dats m 0 c).arrAt 5 cfg0.N = cellOut m c :=
  (dats m 0 c).arrAt_eq_of_cover 5 (cellOut m c) (fun t _ => flushed5_eq m c t) cover5

/-- After the run every argument is as launched: the old cell state is a window's array that is never written back, the
    other ten are staged by no window. -/
theorem kept (r : PUnit × MemSt nD τ sig (Elt Ideal)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- The run: both results at their functions of the arguments, the arguments unchanged. -/
theorem run : θ_run defs (onTc (τ := τ) (main (F := Ideal))) ⟨m, fun _ => 0, ρ⟩ fun r => ∀ c : Dev nD,
      r.2.mem ((c.tc : Thread nD τ).loc main_v13_0) = hiddenOut m c
      ∧ r.2.mem ((c.tc : Thread nD τ).loc main_v13_1) = cellOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 4).trans (final4 m c), ((h c).1 5).trans (final5 m c), kept m r h c⟩) (run_main m ρ)

end Cert.KernelIdeal.Arr

end
-- ==== Proof.RefValue.lean ====
/-
  The reference program's two results, entry by entry on the extended reals, are the long short-term memory cell of
  Spec.lean: the four gates' weight matrices stacked by rows into one [8192, 4096] matrix, the combined
  [hidden | input] rows multiplied by its transpose, the stacked biases added, and the result cut back into the four
  gates' column bands, is gate by gate the contraction of a row of the combined array with a row of that gate's own
  matrix plus that gate's own bias; and 1 / (1 + e^(-x)) spelt out is the logistic function.
-/
import proofs.«147393_j58385785422053_1_alg».proof.Proof.Gen.ReferenceIdeal.Read
import proofs.«147393_j58385785422053_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The stacked weights and biases at an index -/

/-- Row `0 + r` of the stacked weights is row `r` of the forget gate's matrix. -/
theorem weights_0 (x3 x5 x7 x9 : (⟨S2048x4096, .f32⟩ : BufTy).Contents (Elt Ideal)) (j : S8192x4096.Idx) (r : Fin 2048) (c : Fin 4096)
    (h0 : (j 0).val = 0 + r.val) (h1 : (j 1).val = c.val) :
    val_main_v1 (F := Ideal) x3 x5 x7 x9 j = x3 (ix2 r c) := by
  unfold val_main_v1
  refine concatenate_apply_piece (0 : Fin S8192x4096.rank) [⟨S2048x4096, x3⟩, ⟨S2048x4096, x5⟩, ⟨S2048x4096, x7⟩, ⟨S2048x4096, x9⟩] concatenates_S2048x4096_S2048x4096_S2048x4096_S2048x4096_S8192x4096_d0 j 0 (by simp) S2048x4096 x3 rfl rfl 0 rfl (ix2 r c) ?_ ?_
  · intro b hb
    match b with
    | ⟨0, _⟩ => exact absurd rfl hb
    | ⟨1, _⟩ => exact h1.symm
  · exact h0.symm

/-- Entry `0 + r` of the stacked biases is entry `r` of the forget gate's bias. -/
theorem bias_0 (x4 x6 x8 x10 : (⟨S2048, .f32⟩ : BufTy).Contents (Elt Ideal)) (j : S8192.Idx) (r : Fin 2048)
    (h0 : (j 0).val = 0 + r.val) :
    val_main_v2 (F := Ideal) x4 x6 x8 x10 j = x4 (ix1 r) := by
  unfold val_main_v2
  refine concatenate_apply_piece (0 : Fin S8192.rank) [⟨S2048, x4⟩, ⟨S2048, x6⟩, ⟨S2048, x8⟩, ⟨S2048, x10⟩] concatenates_S2048_S2048_S2048_S2048_S8192_d0 j 0 (by simp) S2048 x4 rfl rfl 0 rfl (ix1 r) ?_ ?_
  · intro b hb
    match b with
    | ⟨0, _⟩ => exact absurd rfl hb
  · exact h0.symm

/-- Row `2048 + r` of the stacked weights is row `r` of the input gate's matrix. -/
theorem weights_1 (x3 x5 x7 x9 : (⟨S2048x4096, .f32⟩ : BufTy).Contents (Elt Ideal)) (j : S8192x4096.Idx) (r : Fin 2048) (c : Fin 4096)
    (h0 : (j 0).val = 2048 + r.val) (h1 : (j 1).val = c.val) :
    val_main_v1 (F := Ideal) x3 x5 x7 x9 j = x5 (ix2 r c) := by
  unfold val_main_v1
  refine concatenate_apply_piece (0 : Fin S8192x4096.rank) [⟨S2048x4096, x3⟩, ⟨S2048x4096, x5⟩, ⟨S2048x4096, x7⟩, ⟨S2048x4096, x9⟩] concatenates_S2048x4096_S2048x4096_S2048x4096_S2048x4096_S8192x4096_d0 j 1 (by simp) S2048x4096 x5 rfl rfl 2048 rfl (ix2 r c) ?_ ?_
  · intro b hb
    match b with
    | ⟨0, _⟩ => exact absurd rfl hb
    | ⟨1, _⟩ => exact h1.symm
  · exact h0.symm

/-- Entry `2048 + r` of the stacked biases is entry `r` of the input gate's bias. -/
theorem bias_1 (x4 x6 x8 x10 : (⟨S2048, .f32⟩ : BufTy).Contents (Elt Ideal)) (j : S8192.Idx) (r : Fin 2048)
    (h0 : (j 0).val = 2048 + r.val) :
    val_main_v2 (F := Ideal) x4 x6 x8 x10 j = x6 (ix1 r) := by
  unfold val_main_v2
  refine concatenate_apply_piece (0 : Fin S8192.rank) [⟨S2048, x4⟩, ⟨S2048, x6⟩, ⟨S2048, x8⟩, ⟨S2048, x10⟩] concatenates_S2048_S2048_S2048_S2048_S8192_d0 j 1 (by simp) S2048 x6 rfl rfl 2048 rfl (ix1 r) ?_ ?_
  · intro b hb
    match b with
    | ⟨0, _⟩ => exact absurd rfl hb
  · exact h0.symm

/-- Row `4096 + r` of the stacked weights is row `r` of the candidate gate's matrix. -/
theorem weights_2 (x3 x5 x7 x9 : (⟨S2048x4096, .f32⟩ : BufTy).Contents (Elt Ideal)) (j : S8192x4096.Idx) (r : Fin 2048) (c : Fin 4096)
    (h0 : (j 0).val = 4096 + r.val) (h1 : (j 1).val = c.val) :
    val_main_v1 (F := Ideal) x3 x5 x7 x9 j = x7 (ix2 r c) := by
  unfold val_main_v1
  refine concatenate_apply_piece (0 : Fin S8192x4096.rank) [⟨S2048x4096, x3⟩, ⟨S2048x4096, x5⟩, ⟨S2048x4096, x7⟩, ⟨S2048x4096, x9⟩] concatenates_S2048x4096_S2048x4096_S2048x4096_S2048x4096_S8192x4096_d0 j 2 (by simp) S2048x4096 x7 rfl rfl 4096 rfl (ix2 r c) ?_ ?_
  · intro b hb
    match b with
    | ⟨0, _⟩ => exact absurd rfl hb
    | ⟨1, _⟩ => exact h1.symm
  · exact h0.symm

/-- Entry `4096 + r` of the stacked biases is entry `r` of the candidate gate's bias. -/
theorem bias_2 (x4 x6 x8 x10 : (⟨S2048, .f32⟩ : BufTy).Contents (Elt Ideal)) (j : S8192.Idx) (r : Fin 2048)
    (h0 : (j 0).val = 4096 + r.val) :
    val_main_v2 (F := Ideal) x4 x6 x8 x10 j = x8 (ix1 r) := by
  unfold val_main_v2
  refine concatenate_apply_piece (0 : Fin S8192.rank) [⟨S2048, x4⟩, ⟨S2048, x6⟩, ⟨S2048, x8⟩, ⟨S2048, x10⟩] concatenates_S2048_S2048_S2048_S2048_S8192_d0 j 2 (by simp) S2048 x8 rfl rfl 4096 rfl (ix1 r) ?_ ?_
  · intro b hb
    match b with
    | ⟨0, _⟩ => exact absurd rfl hb
  · exact h0.symm

/-- Row `6144 + r` of the stacked weights is row `r` of the output gate's matrix. -/
theorem weights_3 (x3 x5 x7 x9 : (⟨S2048x4096, .f32⟩ : BufTy).Contents (Elt Ideal)) (j : S8192x4096.Idx) (r : Fin 2048) (c : Fin 4096)
    (h0 : (j 0).val = 6144 + r.val) (h1 : (j 1).val = c.val) :
    val_main_v1 (F := Ideal) x3 x5 x7 x9 j = x9 (ix2 r c) := by
  unfold val_main_v1
  refine concatenate_apply_piece (0 : Fin S8192x4096.rank) [⟨S2048x4096, x3⟩, ⟨S2048x4096, x5⟩, ⟨S2048x4096, x7⟩, ⟨S2048x4096, x9⟩] concatenates_S2048x4096_S2048x4096_S2048x4096_S2048x4096_S8192x4096_d0 j 3 (by simp) S2048x4096 x9 rfl rfl 6144 rfl (ix2 r c) ?_ ?_
  · intro b hb
    match b with
    | ⟨0, _⟩ => exact absurd rfl hb
    | ⟨1, _⟩ => exact h1.symm
  · exact h0.symm

/-- Entry `6144 + r` of the stacked biases is entry `r` of the output gate's bias. -/
theorem bias_3 (x4 x6 x8 x10 : (⟨S2048, .f32⟩ : BufTy).Contents (Elt Ideal)) (j : S8192.Idx) (r : Fin 2048)
    (h0 : (j 0).val = 6144 + r.val) :
    val_main_v2 (F := Ideal) x4 x6 x8 x10 j = x10 (ix1 r) := by
  unfold val_main_v2
  refine concatenate_apply_piece (0 : Fin S8192.rank) [⟨S2048, x4⟩, ⟨S2048, x6⟩, ⟨S2048, x8⟩, ⟨S2048, x10⟩] concatenates_S2048_S2048_S2048_S2048_S8192_d0 j 3 (by simp) S2048 x10 rfl rfl 6144 rfl (ix1 r) ?_ ?_
  · intro b hb
    match b with
    | ⟨0, _⟩ => exact absurd rfl hb
  · exact h0.symm

/-! ## A gate's pre-activation -/

/-- The combined array the reference builds is the specification's. -/
theorem comb_eq (x0 x1 : (⟨S4096x2048, .f32⟩ : BufTy).Contents (Elt Ideal)) :
    val_main_v0 (F := Ideal) x0 x1 = Cert.Lstm.combOf x1 x0 := rfl

/-- The product with the transposed stacked weights plus the broadcast stacked biases, at a column whose band is one
    gate's: that gate's pre-activation. The hypotheses say which rows of the stacked weights and which entry of the
    stacked biases the column reads. -/
theorem pre_of (x0 x1 : (⟨S4096x2048, .f32⟩ : BufTy).Contents (Elt Ideal)) (x3 : (⟨S2048x4096, .f32⟩ : BufTy).Contents (Elt Ideal)) (x4 : (⟨S2048, .f32⟩ : BufTy).Contents (Elt Ideal)) (x5 : (⟨S2048x4096, .f32⟩ : BufTy).Contents (Elt Ideal)) (x6 : (⟨S2048, .f32⟩ : BufTy).Contents (Elt Ideal)) (x7 : (⟨S2048x4096, .f32⟩ : BufTy).Contents (Elt Ideal)) (x8 : (⟨S2048, .f32⟩ : BufTy).Contents (Elt Ideal)) (x9 : (⟨S2048x4096, .f32⟩ : BufTy).Contents (Elt Ideal)) (x10 : (⟨S2048, .f32⟩ : BufTy).Contents (Elt Ideal))
    (W : (⟨S2048x4096, .f32⟩ : BufTy).Contents (Elt Ideal)) (b : (⟨S2048, .f32⟩ : BufTy).Contents (Elt Ideal))
    (j : S4096x8192.Idx) (r : Fin 4096) (c : Fin 2048) (hr : (j 0).val = r.val)
    (hW : ∀ k : Fin 4096, val_main_v1 (F := Ideal) x3 x5 x7 x9 (idx_main_v3 (ridx_main_v4 j k)) = W (ix2 c k))
    (hb : val_main_v2 (F := Ideal) x4 x6 x8 x10 (idx_main_v5 (idx_main_v6 j)) = b (ix1 c)) :
    val_main_v7 (F := Ideal) x0 x1 x3 x4 x5 x6 x7 x8 x9 x10 j = Cert.Lstm.gate (Cert.Lstm.combOf x1 x0) W b r c := by
  rw [val_main_v7_apply, val_main_v4_apply, val_main_v6_apply, val_main_v5_apply, hb, Ideal.addf_def]
  unfold Cert.Lstm.gate
  congr 1
  refine Finset.sum_congr rfl fun k _ => ?_
  rw [val_main_v3_apply, hW k, comb_eq]
  have e : lidx_main_v4 j k = ix2 r k := funext fun a => Fin.ext (by
    match a with
    | ⟨0, _⟩ => exact hr
    | ⟨1, _⟩ => rfl)
  rw [e]

/-- The forget gate's column band of the sum is the forget gate's pre-activation. -/
theorem pre_0 (x0 x1 : (⟨S4096x2048, .f32⟩ : BufTy).Contents (Elt Ideal)) (x3 : (⟨S2048x4096, .f32⟩ : BufTy).Contents (Elt Ideal)) (x4 : (⟨S2048, .f32⟩ : BufTy).Contents (Elt Ideal)) (x5 : (⟨S2048x4096, .f32⟩ : BufTy).Contents (Elt Ideal)) (x6 : (⟨S2048, .f32⟩ : BufTy).Contents (Elt Ideal)) (x7 : (⟨S2048x4096, .f32⟩ : BufTy).Contents (Elt Ideal)) (x8 : (⟨S2048, .f32⟩ : BufTy).Contents (Elt Ideal)) (x9 : (⟨S2048x4096, .f32⟩ : BufTy).Contents (Elt Ideal)) (x10 : (⟨S2048, .f32⟩ : BufTy).Contents (Elt Ideal)) (i : S4096x2048.Idx) :
    val_main_v7 (F := Ideal) x0 x1 x3 x4 x5 x6 x7 x8 x9 x10 (idx_main_v8 i)
      = Cert.Lstm.gate (Cert.Lstm.combOf x1 x0) x3 x4 (i 0) (i 1) :=
  pre_of x0 x1 x3 x4 x5 x6 x7 x8 x9 x10 x3 x4 (idx_main_v8 i) (i 0) (i 1) rfl
    (fun k => weights_0 x3 x5 x7 x9 _ (i 1) k (Nat.zero_add _).symm rfl)
    (bias_0 x4 x6 x8 x10 _ (i 1) (Nat.zero_add _).symm)

/-- The input gate's column band of the sum is the input gate's pre-activation. -/
theorem pre_1 (x0 x1 : (⟨S4096x2048, .f32⟩ : BufTy).Contents (Elt Ideal)) (x3 : (⟨S2048x4096, .f32⟩ : BufTy).Contents (Elt Ideal)) (x4 : (⟨S2048, .f32⟩ : BufTy).Contents (Elt Ideal)) (x5 : (⟨S2048x4096, .f32⟩ : BufTy).Contents (Elt Ideal)) (x6 : (⟨S2048, .f32⟩ : BufTy).Contents (Elt Ideal)) (x7 : (⟨S2048x4096, .f32⟩ : BufTy).Contents (Elt Ideal)) (x8 : (⟨S2048, .f32⟩ : BufTy).Contents (Elt Ideal)) (x9 : (⟨S2048x4096, .f32⟩ : BufTy).Contents (Elt Ideal)) (x10 : (⟨S2048, .f32⟩ : BufTy).Contents (Elt Ideal)) (i : S4096x2048.Idx) :
    val_main_v7 (F := Ideal) x0 x1 x3 x4 x5 x6 x7 x8 x9 x10 (idx_main_v9 i)
      = Cert.Lstm.gate (Cert.Lstm.combOf x1 x0) x5 x6 (i 0) (i 1) :=
  pre_of x0 x1 x3 x4 x5 x6 x7 x8 x9 x10 x5 x6 (idx_main_v9 i) (i 0) (i 1) rfl
    (fun k => weights_1 x3 x5 x7 x9 _ (i 1) k rfl rfl)
    (bias_1 x4 x6 x8 x10 _ (i 1) rfl)

/-- The candidate gate's column band of the sum is the candidate gate's pre-activation. -/
theorem pre_2 (x0 x1 : (⟨S4096x2048, .f32⟩ : BufTy).Contents (Elt Ideal)) (x3 : (⟨S2048x4096, .f32⟩ : BufTy).Contents (Elt Ideal)) (x4 : (⟨S2048, .f32⟩ : BufTy).Contents (Elt Ideal)) (x5 : (⟨S2048x4096, .f32⟩ : BufTy).Contents (Elt Ideal)) (x6 : (⟨S2048, .f32⟩ : BufTy).Contents (Elt Ideal)) (x7 : (⟨S2048x4096, .f32⟩ : BufTy).Contents (Elt Ideal)) (x8 : (⟨S2048, .f32⟩ : BufTy).Contents (Elt Ideal)) (x9 : (⟨S2048x4096, .f32⟩ : BufTy).Contents (Elt Ideal)) (x10 : (⟨S2048, .f32⟩ : BufTy).Contents (Elt Ideal)) (i : S4096x2048.Idx) :
    val_main_v7 (F := Ideal) x0 x1 x3 x4 x5 x6 x7 x8 x9 x10 (idx_main_v10 i)
      = Cert.Lstm.gate (Cert.Lstm.combOf x1 x0) x7 x8 (i 0) (i 1) :=
  pre_of x0 x1 x3 x4 x5 x6 x7 x8 x9 x10 x7 x8 (idx_main_v10 i) (i 0) (i 1) rfl
    (fun k => weights_2 x3 x5 x7 x9 _ (i 1) k rfl rfl)
    (bias_2 x4 x6 x8 x10 _ (i 1) rfl)

/-- The output gate's column band of the sum is the output gate's pre-activation. -/
theorem pre_3 (x0 x1 : (⟨S4096x2048, .f32⟩ : BufTy).Contents (Elt Ideal)) (x3 : (⟨S2048x4096, .f32⟩ : BufTy).Contents (Elt Ideal)) (x4 : (⟨S2048, .f32⟩ : BufTy).Contents (Elt Ideal)) (x5 : (⟨S2048x4096, .f32⟩ : BufTy).Contents (Elt Ideal)) (x6 : (⟨S2048, .f32⟩ : BufTy).Contents (Elt Ideal)) (x7 : (⟨S2048x4096, .f32⟩ : BufTy).Contents (Elt Ideal)) (x8 : (⟨S2048, .f32⟩ : BufTy).Contents (Elt Ideal)) (x9 : (⟨S2048x4096, .f32⟩ : BufTy).Contents (Elt Ideal)) (x10 : (⟨S2048, .f32⟩ : BufTy).Contents (Elt Ideal)) (i : S4096x2048.Idx) :
    val_main_v7 (F := Ideal) x0 x1 x3 x4 x5 x6 x7 x8 x9 x10 (idx_main_v11 i)
      = Cert.Lstm.gate (Cert.Lstm.combOf x1 x0) x9 x10 (i 0) (i 1) :=
  pre_of x0 x1 x3 x4 x5 x6 x7 x8 x9 x10 x9 x10 (idx_main_v11 i) (i 0) (i 1) rfl
    (fun k => weights_3 x3 x5 x7 x9 _ (i 1) k rfl rfl)
    (bias_3 x4 x6 x8 x10 _ (i 1) rfl)

/-! ## The two results -/

/-- The reciprocal of one plus the exponential of the negative, with the constant one read from its bit pattern, is
    the logistic function. -/
theorem logistic_spelt (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  rw [Ideal.hostDivf_def, Ideal.addf_def, Ideal.hostUnary_exp_def, Ideal.hostNegf_def, Ideal.negf_def, Ideal.ofBits_def,
    Ideal.ofBits_one_f32]
  rfl

theorem ref_cell (x0 x1 x2 : (⟨S4096x2048, .f32⟩ : BufTy).Contents (Elt Ideal)) (x3 : (⟨S2048x4096, .f32⟩ : BufTy).Contents (Elt Ideal)) (x4 : (⟨S2048, .f32⟩ : BufTy).Contents (Elt Ideal)) (x5 : (⟨S2048x4096, .f32⟩ : BufTy).Contents (Elt Ideal)) (x6 : (⟨S2048, .f32⟩ : BufTy).Contents (Elt Ideal)) (x7 : (⟨S2048x4096, .f32⟩ : BufTy).Contents (Elt Ideal)) (x8 : (⟨S2048, .f32⟩ : BufTy).Contents (Elt Ideal)) (x9 : (⟨S2048x4096, .f32⟩ : BufTy).Contents (Elt Ideal)) (x10 : (⟨S2048, .f32⟩ : BufTy).Contents (Elt Ideal)) :
    Cert.ReferenceIdeal.Read.val_main_v33 (F := Ideal) x0 x1 x2 x3 x4 x5 x6 x7 x8 x9 x10
      = Cert.Lstm.cell (Cert.Lstm.combOf x1 x0) x3 x4 x5 x6 x7 x8 x2 := by
  funext i
  rw [val_main_v33_apply, val_main_v31_apply, val_main_v32_apply, val_main_v17_apply, val_main_v23_apply, val_main_v24_apply,
    val_main_v16_apply, val_main_v22_apply, val_main_cst_0_apply, val_main_cst_2_apply,
    val_main_v15_apply, val_main_v21_apply, val_main_v14_apply, val_main_v20_apply, val_main_cst_apply, val_main_cst_1_apply,
    val_main_v13_apply, val_main_v19_apply, val_main_v12_apply, val_main_v18_apply,
    val_main_v8_apply, val_main_v9_apply, val_main_v10_apply, pre_0, pre_1, pre_2,
    logistic_spelt, logistic_spelt, Ideal.hostUnary_tanh_def, Ideal.addf_def, Ideal.mulf_def, Ideal.mulf_def]
  rfl

theorem ref_hidden (x0 x1 x2 : (⟨S4096x2048, .f32⟩ : BufTy).Contents (Elt Ideal)) (x3 : (⟨S2048x4096, .f32⟩ : BufTy).Contents (Elt Ideal)) (x4 : (⟨S2048, .f32⟩ : BufTy).Contents (Elt Ideal)) (x5 : (⟨S2048x4096, .f32⟩ : BufTy).Contents (Elt Ideal)) (x6 : (⟨S2048, .f32⟩ : BufTy).Contents (Elt Ideal)) (x7 : (⟨S2048x4096, .f32⟩ : BufTy).Contents (Elt Ideal)) (x8 : (⟨S2048, .f32⟩ : BufTy).Contents (Elt Ideal)) (x9 : (⟨S2048x4096, .f32⟩ : BufTy).Contents (Elt Ideal)) (x10 : (⟨S2048, .f32⟩ : BufTy).Contents (Elt Ideal)) :
    Cert.ReferenceIdeal.Read.val_main_v35 (F := Ideal) x0 x1 x2 x3 x4 x5 x6 x7 x8 x9 x10
      = Cert.Lstm.hidden (Cert.Lstm.combOf x1 x0) x3 x4 x5 x6 x7 x8 x9 x10 x2 := by
  funext i
  rw [val_main_v35_apply, val_main_v34_apply, ref_cell, val_main_v30_apply, val_main_v29_apply, val_main_cst_4_apply,
    val_main_v28_apply, val_main_v27_apply, val_main_cst_3_apply, val_main_v26_apply, val_main_v25_apply,
    val_main_v11_apply, pre_3, logistic_spelt, Ideal.hostUnary_tanh_def, Ideal.mulf_def]
  rfl

end Cert.ReferenceIdeal.RefValue

end
-- ==== Proof.lean ====
/-
  The certificate of the long short-term memory cell kernel against its reference, over the extended reals.

  Both programs compute, entry by entry, the new hidden state and the new cell state of `Cert.Lstm` (Proof/Spec.lean) of
  their eleven arguments: four gates, each a contraction of a row of the concatenation [h_prev, x_t] with a row of the
  gate's weight matrix plus a bias, three of them through 1 / (1 + e^(-x)) and one through tanh.
  * The kernel stacks the weights and biases on the host and, on an 8 × 8 grid, computes a 512 × 256 block of both results
    from 512 rows of the concatenation and 256 rows of each gate's weights; the blocks tile the results
    (Proof/IdealFrame.lean: the run; Proof/PayloadAt.lean: the body's arithmetic at an index; Proof/HostReads.lean: the
    stacked arrays at an index; Proof/Arrays.lean: blocks to arrays).
  * The reference concatenates the weights into one [8192, 4096] matrix, multiplies once and slices the four gates out,
    with 1 / (1 + e^(-x)) spelt as negate, exponential, add, divide (Proof/RefValue.lean, over the reference's run).
  No algebraic law is needed beyond re-indexing: the sums have the same terms in the same order, so the precondition is
  not opened.  The three frames are the runs with the results forgotten; the idealization rewrote nothing.
-/
import proofs.«147393_j58385785422053_1_alg».proof.Defs
import proofs.«147393_j58385785422053_1_alg».proof.Proof.Gen.Kernel
import proofs.«147393_j58385785422053_1_alg».proof.Proof.Gen.KernelIdeal
import proofs.«147393_j58385785422053_1_alg».proof.Proof.Gen.ReferenceIdeal
import proofs.«147393_j58385785422053_1_alg».proof.Proof.Gen.Pre_finite_inputs
import proofs.«147393_j58385785422053_1_alg».proof.Proof.KernelFrame
import proofs.«147393_j58385785422053_1_alg».proof.Proof.IdealFrame
import proofs.«147393_j58385785422053_1_alg».proof.Proof.Arrays
import proofs.«147393_j58385785422053_1_alg».proof.Proof.RefValue
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Frm.frame m ρ

theorem frame_pi : Cert.frame_KernelIdeal := fun m ρ _ => Cert.KernelIdeal.Frm.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments, the kernel's run ends with the new hidden and cell states of its arguments
    and the reference's run with the same functions of its own, which are the kernel's. -/
theorem algebraic : Cert.algebraic_KernelIdeal_ReferenceIdeal := by
  intro m ρ m' ρ' _ hagree
  refine ⟨fun c => Cert.KernelIdeal.Arr.hiddenOut m c, fun c => Cert.KernelIdeal.Arr.cellOut m c,
    Cert.KernelIdeal.Arr.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10⟩ := hagree c
    rw [(h c).1, Cert.ReferenceIdeal.Read.val_main_v35_eq, Cert.ReferenceIdeal.RefValue.ref_hidden,
      a0, a1, a2, a3, a4, a5, a6, a7, a8, a9, a10]
  · obtain ⟨a0, a1, a2, a3, a4, a5, a6, a7, a8, a9, a10⟩ := hagree c
    refine (h c).2.1.trans ?_
    refine (Cert.ReferenceIdeal.Read.val_main_v33_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    rw [Cert.ReferenceIdeal.RefValue.ref_cell, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
